-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S1024x28672 : Shape := ⟨2, ![1024, 28672]⟩
abbrev S28672x1 : Shape := ⟨2, ![28672, 1]⟩
abbrev S28672 : Shape := ⟨1, ![28672]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S28672x1 : S_.BroadcastsInDim S28672x1 (![] : Fin 0 → Fin S28672x1.rank)
  reducesTo_S28672x1_S_d0_1 : S28672x1.ReducesTo [0, 1] S_
  bcast_S_S28672 : S_.BroadcastsInDim S28672 (![] : Fin 0 → Fin S28672.rank)
  reducesTo_S28672_S_d0 : S28672.ReducesTo [0] S_

variable [Facts]

def fn_part1 {F : FTy → Type} [FloatOps F] (main_v13 : IVec S_ 1) (main_v16 : IVec S28672 1) : IVec S_ 1 :=
  let main_c_5 : IVec S_ 1 := constantI S_ 1 1#1
  let main_v17 : IVec S_ 1 := (fun x v => Host.reduce IntOp.andi x v reducesTo_S28672_S_d0 h_S_) main_v16 main_c_5
  let main_v18 : IVec S_ 1 := andi main_v13 main_v17
  main_v18

def fn {F : FTy → Type} [FloatOps F] (main_arg0 : FVec F S16x8192 .f32) (main_arg1 : IVec S1024x28672 32) (main_arg2 : FVec F S28672x1 .f32) (main_arg3 : FVec F S28672x1 .f32) (main_arg4 : FVec F S28672 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S28672x1 .f32 := Host.absf main_arg2
  let main_cst_0 : FVec F S_ .f32 := constant S_ .f32 0x7F800000#32
  let main_v5 : FVec F S28672x1 .f32 := broadcastInDim S28672x1 ![] bcast_S_S28672x1 main_cst_0
  let main_v6 : IVec S28672x1 1 := cmpf .olt main_v4 main_v5
  let main_c_1 : IVec S_ 1 := constantI S_ 1 1#1
  let main_v7 : IVec S_ 1 := (fun x v => Host.reduce IntOp.andi x v reducesTo_S28672x1_S_d0_1 h_S_) main_v6 main_c_1
  let main_v8 : IVec S_ 1 := andi main_v3 main_v7
  let main_v9 : FVec F S28672x1 .f32 := Host.absf main_arg3
  let main_cst_2 : FVec F S_ .f32 := constant S_ .f32 0x7F800000#32
  let main_v10 : FVec F S28672x1 .f32 := broadcastInDim S28672x1 ![] bcast_S_S28672x1 main_cst_2
  let main_v11 : IVec S28672x1 1 := cmpf .olt main_v9 main_v10
  let main_c_3 : IVec S_ 1 := constantI S_ 1 1#1
  let main_v12 : IVec S_ 1 := (fun x v => Host.reduce IntOp.andi x v reducesTo_S28672x1_S_d0_1 h_S_) main_v11 main_c_3
  let main_v13 : IVec S_ 1 := andi main_v8 main_v12
  let main_v14 : FVec F S28672 .f32 := Host.absf main_arg4
  let main_cst_4 : FVec F S_ .f32 := constant S_ .f32 0x7F800000#32
  let main_v15 : FVec F S28672 .f32 := broadcastInDim S28672 ![] bcast_S_S28672 main_cst_4
  let main_v16 : IVec S28672 1 := cmpf .olt main_v14 main_v15
  fn_part1 (F := F) main_v13 main_v16
-- ==== Kernel.lean ====
abbrev S16x8192 : Shape := ⟨2, ![16, 8192]⟩
abbrev S1024x28672 : Shape := ⟨2, ![1024, 28672]⟩
abbrev S28672x1 : Shape := ⟨2, ![28672, 1]⟩
abbrev S28672 : Shape := ⟨1, ![28672]⟩
abbrev S_ : Shape := ⟨0, ![]⟩
abbrev S16 : Shape := ⟨1, ![16]⟩
abbrev S16x1 : Shape := ⟨2, ![16, 1]⟩
abbrev S1x28672 : Shape := ⟨2, ![1, 28672]⟩
abbrev S3x28672 : Shape := ⟨2, ![3, 28672]⟩
abbrev S16x1024x8 : Shape := ⟨3, ![16, 1024, 8]⟩
abbrev S8x16x1024 : Shape := ⟨3, ![8, 16, 1024]⟩
abbrev S16x28672 : Shape := ⟨2, ![16, 28672]⟩
abbrev S256x4096 : Shape := ⟨2, ![256, 4096]⟩
abbrev S3x4096 : Shape := ⟨2, ![3, 4096]⟩
abbrev S16x4096 : Shape := ⟨2, ![16, 4096]⟩
abbrev S1x16x256 : Shape := ⟨3, ![1, 16, 256]⟩
abbrev S16x256 : Shape := ⟨2, ![16, 256]⟩
abbrev S1x4096 : Shape := ⟨2, ![1, 4096]⟩

abbrev nBuf : Space → Nat
  | .hbm => 15
  | .vmem => 9
  | .smem => 0
  | _ => 0

abbrev bufTy : (tb : Table) → Fin (tcTables nBuf tb) → BufTy
  | .hbm, ⟨0, _⟩ => ⟨S16x8192, .f32⟩
  | .hbm, ⟨1, _⟩ => ⟨S1024x28672, .i32⟩
  | .hbm, ⟨2, _⟩ => ⟨S28672x1, .f32⟩
  | .hbm, ⟨3, _⟩ => ⟨S28672x1, .f32⟩
  | .hbm, ⟨4, _⟩ => ⟨S28672, .f32⟩
  | .hbm, ⟨5, _⟩ => ⟨S_, .f32⟩
  | .hbm, ⟨6, _⟩ => ⟨S16, .f32⟩
  | .hbm, ⟨7, _⟩ => ⟨S16x1, .f32⟩
  | .hbm, ⟨8, _⟩ => ⟨S1x28672, .f32⟩
  | .hbm, ⟨9, _⟩ => ⟨S1x28672, .f32⟩
  | .hbm, ⟨10, _⟩ => ⟨S1x28672, .f32⟩
  | .hbm, ⟨11, _⟩ => ⟨S3x28672, .f32⟩
  | .hbm, ⟨12, _⟩ => ⟨S16x1024x8, .f32⟩
  | .hbm, ⟨13, _⟩ => ⟨S8x16x1024, .f32⟩
  | .hbm, ⟨14, _⟩ => ⟨S16x28672, .f32⟩
  | .local _ .vmem, ⟨0, _⟩ => ⟨S8x16x1024, .f32⟩
  | .local _ .vmem, ⟨1, _⟩ => ⟨S256x4096, .i32⟩
  | .local _ .vmem, ⟨2, _⟩ => ⟨S256x4096, .i32⟩
  | .local _ .vmem, ⟨3, _⟩ => ⟨S3x4096, .f32⟩
  | .local _ .vmem, ⟨4, _⟩ => ⟨S3x4096, .f32⟩
  | .local _ .vmem, ⟨5, _⟩ => ⟨S16x1, .f32⟩
  | .local _ .vmem, ⟨6, _⟩ => ⟨S16x4096, .f32⟩
  | .local _ .vmem, ⟨7, _⟩ => ⟨S16x4096, .f32⟩
  | .local _ .vmem, ⟨8, _⟩ => ⟨S16x4096, .f32⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![7, 4], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0_5 : Index := 0#32
  let c0_6 : Index := 0#32
  let arg1 : BitVec 32 := BitVec.ofNat 32 (i 1).val
  let c256_i32 : BitVec 32 := 256#32
  let v3 : BitVec 32 := Scalar.muli arg1 c256_i32
  let v4 : BitVec 32 := v3
  let v12 : Index := Scalar.indexCast v4
  ![0, 0, v12.toNat]
def k0_off2 (i : grid0.Coords) : Fin 3 → Nat :=
  let c1 : Index := 1#32
  let c0_8 : Index := 0#32
  let arg1 : BitVec 32 := BitVec.ofNat 32 (i 1).val
  let c256_i32 : BitVec 32 := 256#32
  let v3 : BitVec 32 := Scalar.muli arg1 c256_i32
  let v4 : BitVec 32 := v3
  let v23 : Index := Scalar.indexCast v4
  ![1, 0, v23.toNat]
def k0_off3 (i : grid0.Coords) : Fin 3 → Nat :=
  let c2 : Index := 2#32
  let c0_11 : Index := 0#32
  let arg1 : BitVec 32 := BitVec.ofNat 32 (i 1).val
  let c256_i32 : BitVec 32 := 256#32
  let v3 : BitVec 32 := Scalar.muli arg1 c256_i32
  let v4 : BitVec 32 := v3
  let v34 : Index := Scalar.indexCast v4
  ![2, 0, v34.toNat]
def k0_off4 (i : grid0.Coords) : Fin 3 → Nat :=
  let c3 : Index := 3#32
  let c0_14 : Index := 0#32
  let arg1 : BitVec 32 := BitVec.ofNat 32 (i 1).val
  let c256_i32 : BitVec 32 := 256#32
  let v3 : BitVec 32 := Scalar.muli arg1 c256_i32
  let v4 : BitVec 32 := v3
  let v45 : Index := Scalar.indexCast v4
  ![3, 0, v45.toNat]
def k0_off5 (i : grid0.Coords) : Fin 3 → Nat :=
  let c4 : Index := 4#32
  let c0_17 : Index := 0#32
  let arg1 : BitVec 32 := BitVec.ofNat 32 (i 1).val
  let c256_i32 : BitVec 32 := 256#32
  let v3 : BitVec 32 := Scalar.muli arg1 c256_i32
  let v4 : BitVec 32 := v3
  let v56 : Index := Scalar.indexCast v4
  ![4, 0, v56.toNat]
def k0_off6 (i : grid0.Coords) : Fin 3 → Nat :=
  let c5 : Index := 5#32
  let c0_20 : Index := 0#32
  let arg1 : BitVec 32 := BitVec.ofNat 32 (i 1).val
  let c256_i32 : BitVec 32 := 256#32
  let v3 : BitVec 32 := Scalar.muli arg1 c256_i32
  let v4 : BitVec 32 := v3
  let v67 : Index := Scalar.indexCast v4
  ![5, 0, v67.toNat]
def k0_off7 (i : grid0.Coords) : Fin 3 → Nat :=
  let c6 : Index := 6#32
  let c0_23 : Index := 0#32
  let arg1 : BitVec 32 := BitVec.ofNat 32 (i 1).val
  let c256_i32 : BitVec 32 := 256#32
  let v3 : BitVec 32 := Scalar.muli arg1 c256_i32
  let v4 : BitVec 32 := v3
  let v78 : Index := Scalar.indexCast v4
  ![6, 0, v78.toNat]
def k0_off8 (i : grid0.Coords) : Fin 3 → Nat :=
  let c7 : Index := 7#32
  let c0_26 : Index := 0#32
  let arg1 : BitVec 32 := BitVec.ofNat 32 (i 1).val
  let c256_i32 : BitVec 32 := 256#32
  let v3 : BitVec 32 := Scalar.muli arg1 c256_i32
  let v4 : BitVec 32 := v3
  let v89 : Index := Scalar.indexCast v4
  ![7, 0, v89.toNat]
def k0_cond2 (i : grid0.Coords) : BitVec 1 :=
  let arg1 : BitVec 32 := BitVec.ofNat 32 (i 1).val
  let c3_i32 : BitVec 32 := 3#32
  let v98 : BitVec 1 := Scalar.cmpi .eq arg1 c3_i32
  let v99 : BitVec 32 := Scalar.extui v98
  let c0_i32_30 : BitVec 32 := 0#32
  let v100 : BitVec 1 := Scalar.cmpi .ne v99 c0_i32_30
  v100

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S16x8192_S16_d1 : S16x8192.ReducesTo [1] S16
  h_S_ : 0 < S_.numel
  bcast_S16_S16x1_0 : S16.BroadcastsInDim S16x1 (![0] : Fin 1 → Fin S16x1.rank)
  shapeCasts_S28672x1_S1x28672 : S28672x1.ShapeCasts S1x28672
  shapeCasts_S28672_S1x28672 : S28672.ShapeCasts S1x28672
  concatenates_S1x28672_S1x28672_S1x28672_S3x28672_d0 : Shape.Concatenates [S1x28672, S1x28672, S1x28672] S3x28672 0
  shapeCasts_S16x8192_S16x1024x8 : S16x8192.ShapeCasts S16x1024x8
  transposes_S16x1024x8_S8x16x1024_2_0_1 : S16x1024x8.Transposes [2, 0, 1] S8x16x1024
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  inb_S256x4096_S256x4096_0_0 : ∀ a, (![0, 0] : Fin 2 → Nat) a + S256x4096.size a ≤ S256x4096.size a
  h_S256x4096 : 0 < S256x4096.numel
  h_S1x16x256 : 0 < S1x16x256.numel
  shapeCasts_S1x16x256_S16x256 : S1x16x256.ShapeCasts S16x256
  bitsLt_bf16_f32 : FTy.bits .bf16 < FTy.bits .f32
  inb_S3x4096_S1x4096_0_0 : ∀ a, (![0, 0] : Fin 2 → Nat) a + S1x4096.size a ≤ S3x4096.size a
  h_S1x4096 : 0 < S1x4096.numel
  shapeCasts_S1x4096_S1x4096 : S1x4096.ShapeCasts S1x4096
  inb_S3x4096_S1x4096_1_0 : ∀ a, (![1, 0] : Fin 2 → Nat) a + S1x4096.size a ≤ S3x4096.size a
  inb_S3x4096_S1x4096_2_0 : ∀ a, (![2, 0] : Fin 2 → Nat) a + S1x4096.size a ≤ S3x4096.size a
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S1x4096_S16x4096 : S1x4096.Broadcasts S16x4096
  broadcasts_S16x1_S16x4096 : S16x1.Broadcasts S16x4096
  dot_S16x256_S256x4096_S16x4096_1_0_0_1_n_n_wf : DotDims.WF S16x256 S256x4096 S16x4096 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x16x256.size a ≤ S8x16x1024.size a
  k0_off2_inb : ∀ i : grid0.Coords, ∀ a, (k0_off2 i) a + S1x16x256.size a ≤ S8x16x1024.size a
  k0_off3_inb : ∀ i : grid0.Coords, ∀ a, (k0_off3 i) a + S1x16x256.size a ≤ S8x16x1024.size a
  k0_off4_inb : ∀ i : grid0.Coords, ∀ a, (k0_off4 i) a + S1x16x256.size a ≤ S8x16x1024.size a
  k0_off5_inb : ∀ i : grid0.Coords, ∀ a, (k0_off5 i) a + S1x16x256.size a ≤ S8x16x1024.size a
  k0_off6_inb : ∀ i : grid0.Coords, ∀ a, (k0_off6 i) a + S1x16x256.size a ≤ S8x16x1024.size a
  k0_off7_inb : ∀ i : grid0.Coords, ∀ a, (k0_off7 i) a + S1x16x256.size a ≤ S8x16x1024.size a
  k0_off8_inb : ∀ i : grid0.Coords, ∀ a, (k0_off8 i) a + S1x16x256.size a ≤ S8x16x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x16x1024.size a ≤ S8x16x1024.size a
  hwx0_0 : ∀ i : grid0.Coords, EltTy.bits .f32 = 32 ∨ (Rect.block (s := S8x16x1024) S8x16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S1024x28672.size a
  hwx0_1 : ∀ i : grid0.Coords, EltTy.bits .i32 = 32 ∨ (Rect.block (s := S1024x28672) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x4096.size a ≤ S3x28672.size a
  hwx0_2 : ∀ i : grid0.Coords, EltTy.bits .f32 = 32 ∨ (Rect.block (s := S3x28672) S3x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S16x1.size a
  hwx0_3 : ∀ i : grid0.Coords, EltTy.bits .f32 = 32 ∨ (Rect.block (s := S16x1) S16x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x4096.size a ≤ S16x28672.size a
  hwx0_4 : ∀ i : grid0.Coords, EltTy.bits .f32 = 32 ∨ (Rect.block (s := S16x28672) S16x4096.size (cc0_transform_4 i) (hinb0_4 i)).WholeWords (EltTy.packing .f32)

variable [Facts₀]

def dot_S16x256_S256x4096_S16x4096_1_0_0_1_n_n : DotDims S16x256 S256x4096 S16x4096 where
  lhsContracting := [1]
  rhsContracting := [0]
  lhsNonContracting := [0]
  rhsNonContracting := [1]
  lhsBatch := []
  rhsBatch := []
  wf := dot_S16x256_S256x4096_S16x4096_1_0_0_1_n_n_wf

abbrev win0_0 : Pipeline.Window sig grid0 :=
  Pipeline.Window.ofSpec (Memref.whole main_v7) S8x16x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S3x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S16x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x8192 : Shape := ⟨2, ![16, 8192]⟩
abbrev S1024x28672 : Shape := ⟨2, ![1024, 28672]⟩
abbrev S28672x1 : Shape := ⟨2, ![28672, 1]⟩
abbrev S28672 : Shape := ⟨1, ![28672]⟩
abbrev S8 : Shape := ⟨1, ![8]⟩
abbrev S_ : Shape := ⟨0, ![]⟩
abbrev S1024x1x28672 : Shape := ⟨3, ![1024, 1, 28672]⟩
abbrev S1x8x1 : Shape := ⟨3, ![1, 8, 1]⟩
abbrev S1024x8x28672 : Shape := ⟨3, ![1024, 8, 28672]⟩
abbrev S8192x28672 : Shape := ⟨2, ![8192, 28672]⟩
abbrev S16x28672 : Shape := ⟨2, ![16, 28672]⟩
abbrev S1x28672 : Shape := ⟨2, ![1, 28672]⟩
abbrev S16 : Shape := ⟨1, ![16]⟩
abbrev S16x1 : Shape := ⟨2, ![16, 1]⟩

abbrev nBuf : Space → Nat
  | .hbm => 36
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S1024x28672, .i32⟩
  | .hbm, ⟨2, _⟩ => ⟨S28672x1, .f32⟩
  | .hbm, ⟨3, _⟩ => ⟨S28672x1, .f32⟩
  | .hbm, ⟨4, _⟩ => ⟨S28672, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S1024x1x28672, .i32⟩
  | .hbm, ⟨10, _⟩ => ⟨S1x8x1, .i32⟩
  | .hbm, ⟨11, _⟩ => ⟨S1024x8x28672, .i32⟩
  | .hbm, ⟨12, _⟩ => ⟨S1024x8x28672, .i32⟩
  | .hbm, ⟨13, _⟩ => ⟨S1024x8x28672, .i32⟩
  | .hbm, ⟨14, _⟩ => ⟨S_, .i32⟩
  | .hbm, ⟨15, _⟩ => ⟨S1024x8x28672, .i32⟩
  | .hbm, ⟨16, _⟩ => ⟨S1024x8x28672, .i32⟩
  | .hbm, ⟨17, _⟩ => ⟨S8192x28672, .i32⟩
  | .hbm, ⟨18, _⟩ => ⟨S8192x28672, .f32⟩
  | .hbm, ⟨19, _⟩ => ⟨S28672, .f32⟩
  | .hbm, ⟨20, _⟩ => ⟨S28672, .f32⟩
  | .hbm, ⟨21, _⟩ => ⟨S16x28672, .f32⟩
  | .hbm, ⟨22, _⟩ => ⟨S1x28672, .f32⟩
  | .hbm, ⟨23, _⟩ => ⟨S16x28672, .f32⟩
  | .hbm, ⟨24, _⟩ => ⟨S16x28672, .f32⟩
  | .hbm, ⟨25, _⟩ => ⟨S_, .f32⟩
  | .hbm, ⟨26, _⟩ => ⟨S16, .f32⟩
  | .hbm, ⟨27, _⟩ => ⟨S16x1, .f32⟩
  | .hbm, ⟨28, _⟩ => ⟨S1x28672, .f32⟩
  | .hbm, ⟨29, _⟩ => ⟨S16x28672, .f32⟩
  | .hbm, ⟨30, _⟩ => ⟨S16x28672, .f32⟩
  | .hbm, ⟨31, _⟩ => ⟨S16x28672, .f32⟩
  | .hbm, ⟨32, _⟩ => ⟨S16x28672, .f32⟩
  | .hbm, ⟨33, _⟩ => ⟨S1x28672, .f32⟩
  | .hbm, ⟨34, _⟩ => ⟨S16x28672, .f32⟩
  | .hbm, ⟨35, _⟩ => ⟨S16x28672, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S1024x28672_S1024x1x28672_0_2 : S1024x28672.BroadcastsInDim S1024x1x28672 (![0, 2] : Fin 2 → Fin S1024x1x28672.rank)
  bcast_S8_S1x8x1_1 : S8.BroadcastsInDim S1x8x1 (![1] : Fin 1 → Fin S1x8x1.rank)
  bcast_S1024x1x28672_S1024x8x28672_0_1_2 : S1024x1x28672.BroadcastsInDim S1024x8x28672 (![0, 1, 2] : Fin 3 → Fin S1024x8x28672.rank)
  bcast_S1x8x1_S1024x8x28672_0_1_2 : S1x8x1.BroadcastsInDim S1024x8x28672 (![0, 1, 2] : Fin 3 → Fin S1024x8x28672.rank)
  bcast_S_S1024x8x28672 : S_.BroadcastsInDim S1024x8x28672 (![] : Fin 0 → Fin S1024x8x28672.rank)
  shapeCasts_S1024x8x28672_S8192x28672 : S1024x8x28672.ShapeCasts S8192x28672
  shapeCasts_S28672x1_S28672 : S28672x1.ShapeCasts S28672
  bcast_S28672_S1x28672_1 : S28672.BroadcastsInDim S1x28672 (![1] : Fin 1 → Fin S1x28672.rank)
  bcast_S1x28672_S16x28672_0_1 : S1x28672.BroadcastsInDim S16x28672 (![0, 1] : Fin 2 → Fin S16x28672.rank)
  reducesTo_S16x8192_S16_d1 : S16x8192.ReducesTo [1] S16
  h_S_ : 0 < S_.numel
  bcast_S16_S16x1_0 : S16.BroadcastsInDim S16x1 (![0] : Fin 1 → Fin S16x1.rank)
  bcast_S16x1_S16x28672_0_1 : S16x1.BroadcastsInDim S16x28672 (![0, 1] : Fin 2 → Fin S16x28672.rank)
  dot_S16x8192_S8192x28672_S16x28672_1_0_0_1_n_n_wf : DotDims.WF S16x8192 S8192x28672 S16x28672 [1] [0] [0] [1] [] []

variable [Facts₀]

def dot_S16x8192_S8192x28672_S16x28672_1_0_0_1_n_n : DotDims S16x8192 S8192x28672 S16x28672 where
  lhsContracting := [1]
  rhsContracting := [0]
  lhsNonContracting := [0]
  rhsNonContracting := [1]
  lhsBatch := []
  rhsBatch := []
  wf := dot_S16x8192_S8192x28672_S16x28672_1_0_0_1_n_n_wf

class Facts : Prop extends Facts₀ where

variable [Facts]
-- ==== Proof.BitsKit.lean ====
/-
  The launch side of the quantized-matmul kernel's frame, at any float instance.

  @main is nine host operations (the row sums of `x`, the three per-channel vectors stacked into one [3, 28672] array,
  `x` re-laid as eight nibble planes) and then one pipelined region on a 7 × 4 grid: the first coordinate picks a
  4096-channel tile of the output, the second a block of 256 packed weight rows. Stated here: the buffers' contents
  when the region is entered (`V`), that the host operations leave the five arguments alone, each input window's
  block at a grid point (`iblk`), that an input's staging buffer holds its block whether or not the point fetches it,
  how the frame claim follows from a frame run, the two conditions the body branches on in closed form over the
  grid (the accumulator is reset where the second coordinate is 0, the output tile is stored where it is 3), and
  where the output window is idle.
-/
import proofs.«429149_j18373870092919_3_alg».proof.Proof.Gen.Kernel.Launch
import proofs.«429149_j18373870092919_3_alg».proof.Proof.Gen.Kernel.Skeleton
import proofs.«429149_j18373870092919_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffer contents when the region is entered, as a valuation: after the nine host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations allocate nothing. -/
theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by exact hostOps0_sub)
    (by exact hostOps0_fresh) main_chain

/-- No host operation writes an argument: each writes only its own result buffer. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved), for any proof data whose array is the region-entry contents and whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- For proof data whose arrays are the region-entry contents, a run to the library's frame post read at the five
    argument arrays — `main_arg1` is a staged input, the other four are staged by no window — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).2 main_arg0 (Pipeline.mem_restRefs_of main_arg0 rfl (by decide))).trans (V_main_arg0 m c),
    ((h c).1 1).trans (((dats 0 c).arrAt_in 1 rfl _).trans ((hA c 1).trans (V_main_arg1 m c))),
    ((h c).2 main_arg2 (Pipeline.mem_restRefs_of main_arg2 rfl (by decide))).trans (V_main_arg2 m c),
    ((h c).2 main_arg3 (Pipeline.mem_restRefs_of main_arg3 rfl (by decide))).trans (V_main_arg3 m c),
    ((h c).2 main_arg4 (Pipeline.mem_restRefs_of main_arg4 rfl (by decide))).trans (V_main_arg4 m c)⟩) h

/-! ## The body's two branch conditions -/

/-- The accumulator is reset: the second grid coordinate is 0 (the body's scalar chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-- The output tile is stored: the second grid coordinate is 3. -/
abbrev cond0_1 (i : grid0.Coords) : Prop := k0_cond2 i = 1#1
/-- It holds at the points ≡ 3 (mod 4) — decided over the grid. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the output tile is not stored the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where it is stored the window is live. -/
theorem liveAt0_4 : ∀ t : Fin cfg0.N, cond0_1 (grid0.coords t) → cfg0.idle 4 (grid0.coords t) = false := by decide +kernel

/-! ## The staging memrefs the body is called with -/

/-- One staging buffer of the output window, through which its contents are stated (the choice does not matter). -/
abbrev VO0_4 : View sig .tc .vmem S16x4096 .f32 := (Memref.whole cc0_stg4_0 : Memref sig .tc .vmem S16x4096 .f32).view
abbrev ms0_0 (t : Fin cfg0.N) : Memref sig .tc .vmem S8x16x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x4096 .f32 := win0_4.stage (cfg0.slots t 4)
abbrev hs0_4 (t : Fin cfg0.N) : (ms0_4 t).IsWhole := hstage0_4 ((cfg0.slots t 4).cast nbuf0_4)
/-- The accumulator: a whole scoped buffer of the kernel's own, passed beside the windows and carried between points. -/
abbrev scM0_0 : Memref sig .tc .vmem S16x4096 .f32 := Memref.whole cc0_scratch0
abbrev VS0_0 : View sig .tc .vmem S16x4096 .f32 := scM0_0.view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.BitsRunFirst.lean ====
/-
  The kernel body run at a grid point whose second coordinate is 0: the accumulator is zeroed, the eight nibble
  planes of the point's weight tile are multiplied in and added, and the output tile is not touched. On whole staging
  buffers holding the four input blocks, the output's buffer at any contents (handed back as found) and the
  accumulator at anything, the body runs to its end with the inputs as they were and the accumulator holding the
  pieces its stores wrote; the pieces are found by running the body symbolically.
-/
import proofs.«429149_j18373870092919_3_alg».proof.Proof.BitsKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : cond0_0 i) (hc1 : ¬cond0_1 i)
    (x0 : Vec F S8x16x1024 .f32) (x1 : Vec F S256x4096 .i32) (x2 : Vec F S3x4096 .f32) (x3 : Vec F S16x1 .f32) :
    Σ' (L4 : List (View.Piece (Elt F) S16x4096 .f32)), { LS0 : List (View.Piece (Elt F) S16x4096 .f32) //
      ∀ (xi4 : Vec F S16x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨[], ?_, fun xi4 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.BitsRunMid.lean ====
/-
  The kernel body run at a grid point whose second coordinate is 1 or 2: the eight nibble planes of the point's weight
  tile are multiplied in and added to the accumulator the point before left; the output tile is not touched.
-/
import proofs.«429149_j18373870092919_3_alg».proof.Proof.BitsRunFirst

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : ¬cond0_0 i) (hc1 : ¬cond0_1 i)
    (x0 : Vec F S8x16x1024 .f32) (x1 : Vec F S256x4096 .i32) (x2 : Vec F S3x4096 .f32) (x3 : Vec F S16x1 .f32) (xs0 : Vec F S16x4096 .f32) :
    Σ' (L4 : List (View.Piece (Elt F) S16x4096 .f32)), { LS0 : List (View.Piece (Elt F) S16x4096 .f32) //
      ∀ (xi4 : Vec F S16x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨[], ?_, fun xi4 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.BitsRunLast.lean ====
/-
  The kernel body run at a grid point whose second coordinate is 3: the last eight planes are added to the
  accumulator, and the output tile is stored: accumulator times scale, minus row sum times zero point, plus bias.
-/
import proofs.«429149_j18373870092919_3_alg».proof.Proof.BitsRunMid

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : ¬cond0_0 i) (hc1 : cond0_1 i)
    (x0 : Vec F S8x16x1024 .f32) (x1 : Vec F S256x4096 .i32) (x2 : Vec F S3x4096 .f32) (x3 : Vec F S16x1 .f32) (xs0 : Vec F S16x4096 .f32) :
    Σ' (L4 : List (View.Piece (Elt F) S16x4096 .f32)), { LS0 : List (View.Piece (Elt F) S16x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Fr

end
-- ==== Proof.BitsFrame.lean ====
/-
  The frame of the quantized-matmul kernel, at any float instance: the run of @main terminates without a fault and
  leaves every pipelined array at what the proof data computes and every other unscoped buffer as the region found it.

  The body has three cases over the grid (second coordinate 0: reset and accumulate; 1 or 2: accumulate; 3: accumulate
  and store the output tile). What each case leaves in the accumulator and in the output window's staging buffer is
  the pieces its stores wrote, read back; what they hold after each grid point is defined by recursion on the point
  (the accumulator carried from the point before); the region's invariant holds the accumulator at that value; the
  body obligation is a case split on the closed forms of the two conditions, each leaf that case's run.
-/
import proofs.«429149_j18373870092919_3_alg».proof.Proof.BitsRunLast

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset case stores nothing into the output window: a placeholder that nothing consults, since there the window is neither written back nor read at the next point. -/
def out0_A_4 (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : cond0_0 i) (hc1 : ¬cond0_1 i)
    (x0 : Vec F S8x16x1024 .f32) (x1 : Vec F S256x4096 .i32) (x2 : Vec F S3x4096 .f32) (x3 : Vec F S16x1 .f32) : Vec F S16x4096 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- The reset case's pieces for the accumulator tile it, so they cover it. -/
theorem scover0_A_0 (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : cond0_0 i) (hc1 : ¬cond0_1 i)
    (x0 : Vec F S8x16x1024 .f32) (x1 : Vec F S256x4096 .i32) (x2 : Vec F S3x4096 .f32) (x3 : Vec F S16x1 .f32) (y : S16x4096.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S16x4096.size (by sl_kernel_rfl) y

/-- What The reset case leaves in the accumulator: its pieces read back over junk. -/
def sout0_A_0 (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : cond0_0 i) (hc1 : ¬cond0_1 i)
    (x0 : Vec F S8x16x1024 .f32) (x1 : Vec F S256x4096 .i32) (x2 : Vec F S3x4096 .f32) (x3 : Vec F S16x1 .f32) : Vec F S16x4096 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- The middle case stores nothing into the output window: a placeholder that nothing consults, since there the window is neither written back nor read at the next point. -/
def out0_B_4 (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : ¬cond0_0 i) (hc1 : ¬cond0_1 i)
    (x0 : Vec F S8x16x1024 .f32) (x1 : Vec F S256x4096 .i32) (x2 : Vec F S3x4096 .f32) (x3 : Vec F S16x1 .f32) (xs0 : Vec F S16x4096 .f32) : Vec F S16x4096 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- The middle case's pieces for the accumulator tile it, so they cover it. -/
theorem scover0_B_0 (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : ¬cond0_0 i) (hc1 : ¬cond0_1 i)
    (x0 : Vec F S8x16x1024 .f32) (x1 : Vec F S256x4096 .i32) (x2 : Vec F S3x4096 .f32) (x3 : Vec F S16x1 .f32) (xs0 : Vec F S16x4096 .f32) (y : S16x4096.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S16x4096.size (by sl_kernel_rfl) y

/-- What The middle case leaves in the accumulator: its pieces read back over junk. -/
def sout0_B_0 (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : ¬cond0_0 i) (hc1 : ¬cond0_1 i)
    (x0 : Vec F S8x16x1024 .f32) (x1 : Vec F S256x4096 .i32) (x2 : Vec F S3x4096 .f32) (x3 : Vec F S16x1 .f32) (xs0 : Vec F S16x4096 .f32) : Vec F S16x4096 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- What The storing case leaves in the output window's staging buffer: its pieces read back over junk. -/
def out0_C_4 (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : ¬cond0_0 i) (hc1 : cond0_1 i)
    (x0 : Vec F S8x16x1024 .f32) (x1 : Vec F S256x4096 .i32) (x2 : Vec F S3x4096 .f32) (x3 : Vec F S16x1 .f32) (xs0 : Vec F S16x4096 .f32) : Vec F S16x4096 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- The storing case's pieces for the output window tile its block, so they cover it. -/
theorem cover0_C_4 (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : ¬cond0_0 i) (hc1 : cond0_1 i)
    (x0 : Vec F S8x16x1024 .f32) (x1 : Vec F S256x4096 .i32) (x2 : Vec F S3x4096 .f32) (x3 : Vec F S16x1 .f32) (xs0 : Vec F S16x4096 .f32) (y : S16x4096.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S16x4096.size (by sl_kernel_rfl) y

/-- The storing case's pieces for the accumulator tile it, so they cover it. -/
theorem scover0_C_0 (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : ¬cond0_0 i) (hc1 : cond0_1 i)
    (x0 : Vec F S8x16x1024 .f32) (x1 : Vec F S256x4096 .i32) (x2 : Vec F S3x4096 .f32) (x3 : Vec F S16x1 .f32) (xs0 : Vec F S16x4096 .f32) (y : S16x4096.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S16x4096.size (by sl_kernel_rfl) y

/-- What The storing case leaves in the accumulator: its pieces read back over junk. -/
def sout0_C_0 (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : ¬cond0_0 i) (hc1 : cond0_1 i)
    (x0 : Vec F S8x16x1024 .f32) (x1 : Vec F S256x4096 .i32) (x2 : Vec F S3x4096 .f32) (x3 : Vec F S16x1 .f32) (xs0 : Vec F S16x4096 .f32) : Vec F S16x4096 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the output window and the accumulator hold after each point -/

/-- After the body at position `n`: (the output window's staging buffer, the accumulator). The case the closed
    forms select at `n`, run at the point's memrefs and input blocks, the accumulator taken from position `n - 1`. -/
def outsAt0 (c : Dev nD) : (n : ℕ) → n < cfg0.N → Vec F S16x4096 .f32 × Vec F S16x4096 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At a point of the reset case. -/
theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- At a point of the middle case: over what the point before left. -/
theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of the storing case: over what the point before left. -/
theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything);
    afterwards the accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; the closed forms say which case the point is in;
    the invariant hands the body the accumulator at what the point before left (at anything at the first point) and
    takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 28 := lt_of_lt_of_eq t.isLt (show cfg0.N = 28 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 28 := N_0; omega)

/-! ## The run and the frame -/

set_option backward.isDefEq.respectTransparency.types false in
/-- From any memory with zero counters every weakly fair execution of @main terminates, and every final state has
    every array of the pipeline at what the library computes from the proof data and every other unscoped buffer as
    the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Fr

end
-- ==== Proof.IdealKit.lean ====
/-
  The launch side of the quantized-matmul kernel's frame, at any float instance.

  @main is nine host operations (the row sums of `x`, the three per-channel vectors stacked into one [3, 28672] array,
  `x` re-laid as eight nibble planes) and then one pipelined region on a 7 × 4 grid: the first coordinate picks a
  4096-channel tile of the output, the second a block of 256 packed weight rows. Stated here: the buffers' contents
  when the region is entered (`V`), that the host operations leave the five arguments alone, each input window's
  block at a grid point (`iblk`), that an input's staging buffer holds its block whether or not the point fetches it,
  how the frame claim follows from a frame run, the two conditions the body branches on in closed form over the
  grid (the accumulator is reset where the second coordinate is 0, the output tile is stored where it is 3), and
  where the output window is idle.
-/
import proofs.«429149_j18373870092919_3_alg».proof.Proof.Gen.KernelIdeal.Launch
import proofs.«429149_j18373870092919_3_alg».proof.Proof.Gen.KernelIdeal.Skeleton
import proofs.«429149_j18373870092919_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffer contents when the region is entered, as a valuation: after the nine host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations allocate nothing. -/
theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by exact hostOps0_sub)
    (by exact hostOps0_fresh) main_chain

/-- No host operation writes an argument: each writes only its own result buffer. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved), for any proof data whose array is the region-entry contents and whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- For proof data whose arrays are the region-entry contents, a run to the library's frame post read at the five
    argument arrays — `main_arg1` is a staged input, the other four are staged by no window — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).2 main_arg0 (Pipeline.mem_restRefs_of main_arg0 rfl (by decide))).trans (V_main_arg0 m c),
    ((h c).1 1).trans (((dats 0 c).arrAt_in 1 rfl _).trans ((hA c 1).trans (V_main_arg1 m c))),
    ((h c).2 main_arg2 (Pipeline.mem_restRefs_of main_arg2 rfl (by decide))).trans (V_main_arg2 m c),
    ((h c).2 main_arg3 (Pipeline.mem_restRefs_of main_arg3 rfl (by decide))).trans (V_main_arg3 m c),
    ((h c).2 main_arg4 (Pipeline.mem_restRefs_of main_arg4 rfl (by decide))).trans (V_main_arg4 m c)⟩) h

/-! ## The body's two branch conditions -/

/-- The accumulator is reset: the second grid coordinate is 0 (the body's scalar chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-- The output tile is stored: the second grid coordinate is 3. -/
abbrev cond0_1 (i : grid0.Coords) : Prop := k0_cond2 i = 1#1
/-- It holds at the points ≡ 3 (mod 4) — decided over the grid. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the output tile is not stored the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where it is stored the window is live. -/
theorem liveAt0_4 : ∀ t : Fin cfg0.N, cond0_1 (grid0.coords t) → cfg0.idle 4 (grid0.coords t) = false := by decide +kernel

/-! ## The staging memrefs the body is called with -/

/-- One staging buffer of the output window, through which its contents are stated (the choice does not matter). -/
abbrev VO0_4 : View sig .tc .vmem S16x4096 .f32 := (Memref.whole cc0_stg4_0 : Memref sig .tc .vmem S16x4096 .f32).view
abbrev ms0_0 (t : Fin cfg0.N) : Memref sig .tc .vmem S8x16x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x4096 .f32 := win0_4.stage (cfg0.slots t 4)
abbrev hs0_4 (t : Fin cfg0.N) : (ms0_4 t).IsWhole := hstage0_4 ((cfg0.slots t 4).cast nbuf0_4)
/-- The accumulator: a whole scoped buffer of the kernel's own, passed beside the windows and carried between points. -/
abbrev scM0_0 : Memref sig .tc .vmem S16x4096 .f32 := Memref.whole cc0_scratch0
abbrev VS0_0 : View sig .tc .vmem S16x4096 .f32 := scM0_0.view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.IdealRunFirst.lean ====
/-
  The kernel body run at a grid point whose second coordinate is 0: the accumulator is zeroed, the eight nibble
  planes of the point's weight tile are multiplied in and added, and the output tile is not touched. On whole staging
  buffers holding the four input blocks, the output's buffer at any contents (handed back as found) and the
  accumulator at anything, the body runs to its end with the inputs as they were and the accumulator holding the
  pieces its stores wrote; the pieces are found by running the body symbolically.
-/
import proofs.«429149_j18373870092919_3_alg».proof.Proof.IdealKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : cond0_0 i) (hc1 : ¬cond0_1 i)
    (x0 : Vec F S8x16x1024 .f32) (x1 : Vec F S256x4096 .i32) (x2 : Vec F S3x4096 .f32) (x3 : Vec F S16x1 .f32) :
    Σ' (L4 : List (View.Piece (Elt F) S16x4096 .f32)), { LS0 : List (View.Piece (Elt F) S16x4096 .f32) //
      ∀ (xi4 : Vec F S16x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨[], ?_, fun xi4 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.IdealRunMid.lean ====
/-
  The kernel body run at a grid point whose second coordinate is 1 or 2: the eight nibble planes of the point's weight
  tile are multiplied in and added to the accumulator the point before left; the output tile is not touched.
-/
import proofs.«429149_j18373870092919_3_alg».proof.Proof.IdealRunFirst

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : ¬cond0_0 i) (hc1 : ¬cond0_1 i)
    (x0 : Vec F S8x16x1024 .f32) (x1 : Vec F S256x4096 .i32) (x2 : Vec F S3x4096 .f32) (x3 : Vec F S16x1 .f32) (xs0 : Vec F S16x4096 .f32) :
    Σ' (L4 : List (View.Piece (Elt F) S16x4096 .f32)), { LS0 : List (View.Piece (Elt F) S16x4096 .f32) //
      ∀ (xi4 : Vec F S16x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨[], ?_, fun xi4 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.IdealRunLast.lean ====
/-
  The kernel body run at a grid point whose second coordinate is 3: the last eight planes are added to the
  accumulator, and the output tile is stored: accumulator times scale, minus row sum times zero point, plus bias.
-/
import proofs.«429149_j18373870092919_3_alg».proof.Proof.IdealRunMid

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : ¬cond0_0 i) (hc1 : cond0_1 i)
    (x0 : Vec F S8x16x1024 .f32) (x1 : Vec F S256x4096 .i32) (x2 : Vec F S3x4096 .f32) (x3 : Vec F S16x1 .f32) (xs0 : Vec F S16x4096 .f32) :
    Σ' (L4 : List (View.Piece (Elt F) S16x4096 .f32)), { LS0 : List (View.Piece (Elt F) S16x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Fr

end
-- ==== Proof.IdealFrame.lean ====
/-
  The frame of the quantized-matmul kernel, at any float instance: the run of @main terminates without a fault and
  leaves every pipelined array at what the proof data computes and every other unscoped buffer as the region found it.

  The body has three cases over the grid (second coordinate 0: reset and accumulate; 1 or 2: accumulate; 3: accumulate
  and store the output tile). What each case leaves in the accumulator and in the output window's staging buffer is
  the pieces its stores wrote, read back; what they hold after each grid point is defined by recursion on the point
  (the accumulator carried from the point before); the region's invariant holds the accumulator at that value; the
  body obligation is a case split on the closed forms of the two conditions, each leaf that case's run.
-/
import proofs.«429149_j18373870092919_3_alg».proof.Proof.IdealRunLast

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset case stores nothing into the output window: a placeholder that nothing consults, since there the window is neither written back nor read at the next point. -/
def out0_A_4 (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : cond0_0 i) (hc1 : ¬cond0_1 i)
    (x0 : Vec F S8x16x1024 .f32) (x1 : Vec F S256x4096 .i32) (x2 : Vec F S3x4096 .f32) (x3 : Vec F S16x1 .f32) : Vec F S16x4096 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- The reset case's pieces for the accumulator tile it, so they cover it. -/
theorem scover0_A_0 (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : cond0_0 i) (hc1 : ¬cond0_1 i)
    (x0 : Vec F S8x16x1024 .f32) (x1 : Vec F S256x4096 .i32) (x2 : Vec F S3x4096 .f32) (x3 : Vec F S16x1 .f32) (y : S16x4096.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S16x4096.size (by sl_kernel_rfl) y

/-- What The reset case leaves in the accumulator: its pieces read back over junk. -/
def sout0_A_0 (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : cond0_0 i) (hc1 : ¬cond0_1 i)
    (x0 : Vec F S8x16x1024 .f32) (x1 : Vec F S256x4096 .i32) (x2 : Vec F S3x4096 .f32) (x3 : Vec F S16x1 .f32) : Vec F S16x4096 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- The middle case stores nothing into the output window: a placeholder that nothing consults, since there the window is neither written back nor read at the next point. -/
def out0_B_4 (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : ¬cond0_0 i) (hc1 : ¬cond0_1 i)
    (x0 : Vec F S8x16x1024 .f32) (x1 : Vec F S256x4096 .i32) (x2 : Vec F S3x4096 .f32) (x3 : Vec F S16x1 .f32) (xs0 : Vec F S16x4096 .f32) : Vec F S16x4096 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- The middle case's pieces for the accumulator tile it, so they cover it. -/
theorem scover0_B_0 (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : ¬cond0_0 i) (hc1 : ¬cond0_1 i)
    (x0 : Vec F S8x16x1024 .f32) (x1 : Vec F S256x4096 .i32) (x2 : Vec F S3x4096 .f32) (x3 : Vec F S16x1 .f32) (xs0 : Vec F S16x4096 .f32) (y : S16x4096.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S16x4096.size (by sl_kernel_rfl) y

/-- What The middle case leaves in the accumulator: its pieces read back over junk. -/
def sout0_B_0 (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : ¬cond0_0 i) (hc1 : ¬cond0_1 i)
    (x0 : Vec F S8x16x1024 .f32) (x1 : Vec F S256x4096 .i32) (x2 : Vec F S3x4096 .f32) (x3 : Vec F S16x1 .f32) (xs0 : Vec F S16x4096 .f32) : Vec F S16x4096 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- What The storing case leaves in the output window's staging buffer: its pieces read back over junk. -/
def out0_C_4 (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : ¬cond0_0 i) (hc1 : cond0_1 i)
    (x0 : Vec F S8x16x1024 .f32) (x1 : Vec F S256x4096 .i32) (x2 : Vec F S3x4096 .f32) (x3 : Vec F S16x1 .f32) (xs0 : Vec F S16x4096 .f32) : Vec F S16x4096 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- The storing case's pieces for the output window tile its block, so they cover it. -/
theorem cover0_C_4 (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : ¬cond0_0 i) (hc1 : cond0_1 i)
    (x0 : Vec F S8x16x1024 .f32) (x1 : Vec F S256x4096 .i32) (x2 : Vec F S3x4096 .f32) (x3 : Vec F S16x1 .f32) (xs0 : Vec F S16x4096 .f32) (y : S16x4096.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S16x4096.size (by sl_kernel_rfl) y

/-- The storing case's pieces for the accumulator tile it, so they cover it. -/
theorem scover0_C_0 (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : ¬cond0_0 i) (hc1 : cond0_1 i)
    (x0 : Vec F S8x16x1024 .f32) (x1 : Vec F S256x4096 .i32) (x2 : Vec F S3x4096 .f32) (x3 : Vec F S16x1 .f32) (xs0 : Vec F S16x4096 .f32) (y : S16x4096.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S16x4096.size (by sl_kernel_rfl) y

/-- What The storing case leaves in the accumulator: its pieces read back over junk. -/
def sout0_C_0 (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : ¬cond0_0 i) (hc1 : cond0_1 i)
    (x0 : Vec F S8x16x1024 .f32) (x1 : Vec F S256x4096 .i32) (x2 : Vec F S3x4096 .f32) (x3 : Vec F S16x1 .f32) (xs0 : Vec F S16x4096 .f32) : Vec F S16x4096 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the output window and the accumulator hold after each point -/

/-- After the body at position `n`: (the output window's staging buffer, the accumulator). The case the closed
    forms select at `n`, run at the point's memrefs and input blocks, the accumulator taken from position `n - 1`. -/
def outsAt0 (c : Dev nD) : (n : ℕ) → n < cfg0.N → Vec F S16x4096 .f32 × Vec F S16x4096 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At a point of the reset case. -/
theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- At a point of the middle case: over what the point before left. -/
theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of the storing case: over what the point before left. -/
theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything);
    afterwards the accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; the closed forms say which case the point is in;
    the invariant hands the body the accumulator at what the point before left (at anything at the first point) and
    takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 28 := lt_of_lt_of_eq t.isLt (show cfg0.N = 28 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 28 := N_0; omega)

/-! ## The run and the frame -/

set_option backward.isDefEq.respectTransparency.types false in
/-- From any memory with zero counters every weakly fair execution of @main terminates, and every final state has
    every array of the pipeline at what the library computes from the proof data and every other unscoped buffer as
    the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Fr

end
-- ==== Proof.IdealPieces.lean ====
/-
  What each case of the kernel body leaves, as values: the accumulator after a grid point is the accumulator before
  it (zero where it is reset) with the eight nibble planes of the point's weight tile multiplied in and added — the
  plane `j` operand being the 256 columns of plane `j` of the re-laid `x` that the point's second coordinate selects —
  and, at the last point of a tile, the output block is that accumulator scaled, shifted and biased per channel.
  Each is read off the pieces the body's run found: one covering store, so the canon of the pieces is the payload.
-/
import proofs.«429149_j18373870092919_3_alg».proof.Proof.IdealFrame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem hz2 : (![0, 0] : Fin 2 → Nat) = fun _ => 0 := funext fun a => by fin_cases a <;> rfl

/-- Plane `J - 1`'s 256 columns at the point: a load of the resident plane array at offsets (J - 1, 0, 256·k). -/
abbrev xld1 (i : grid0.Coords) (x0 : Vec F S8x16x1024 .f32) : Vec F S1x16x256 .f32 :=
  View.ld x0 (Rect.unit (s := S8x16x1024) (k0_off1 i) S1x16x256.size (Facts₀.k0_off1_inb i))
abbrev xld2 (i : grid0.Coords) (x0 : Vec F S8x16x1024 .f32) : Vec F S1x16x256 .f32 :=
  View.ld x0 (Rect.unit (s := S8x16x1024) (k0_off2 i) S1x16x256.size (Facts₀.k0_off2_inb i))
abbrev xld3 (i : grid0.Coords) (x0 : Vec F S8x16x1024 .f32) : Vec F S1x16x256 .f32 :=
  View.ld x0 (Rect.unit (s := S8x16x1024) (k0_off3 i) S1x16x256.size (Facts₀.k0_off3_inb i))
abbrev xld4 (i : grid0.Coords) (x0 : Vec F S8x16x1024 .f32) : Vec F S1x16x256 .f32 :=
  View.ld x0 (Rect.unit (s := S8x16x1024) (k0_off4 i) S1x16x256.size (Facts₀.k0_off4_inb i))
abbrev xld5 (i : grid0.Coords) (x0 : Vec F S8x16x1024 .f32) : Vec F S1x16x256 .f32 :=
  View.ld x0 (Rect.unit (s := S8x16x1024) (k0_off5 i) S1x16x256.size (Facts₀.k0_off5_inb i))
abbrev xld6 (i : grid0.Coords) (x0 : Vec F S8x16x1024 .f32) : Vec F S1x16x256 .f32 :=
  View.ld x0 (Rect.unit (s := S8x16x1024) (k0_off6 i) S1x16x256.size (Facts₀.k0_off6_inb i))
abbrev xld7 (i : grid0.Coords) (x0 : Vec F S8x16x1024 .f32) : Vec F S1x16x256 .f32 :=
  View.ld x0 (Rect.unit (s := S8x16x1024) (k0_off7 i) S1x16x256.size (Facts₀.k0_off7_inb i))
abbrev xld8 (i : grid0.Coords) (x0 : Vec F S8x16x1024 .f32) : Vec F S1x16x256 .f32 :=
  View.ld x0 (Rect.unit (s := S8x16x1024) (k0_off8 i) S1x16x256.size (Facts₀.k0_off8_inb i))

/-- One grid point's update of the accumulator: the eight planes multiplied in and added, in the body's order. -/
def accStep (i : grid0.Coords) (x0 : Vec F S8x16x1024 .f32) (x1 : Vec F S256x4096 .i32) (acc : Vec F S16x4096 .f32) : FVec F S16x4096 .f32 :=
  k0_pay1 x1 (k0_pay6 x1 (k0_pay4 x1 acc (xld1 i x0) (xld2 i x0)) (k0_pay5 x1) (xld3 i x0) (xld4 i x0) (xld5 i x0) (xld6 i x0)) (k0_pay7 x1) (xld7 i x0) (xld8 i x0)

/-- The output block stored at the last point of a tile, from the stacked per-channel rows, the row sums and the accumulator. -/
def outOf (x2 : Vec F S3x4096 .f32) (x3 : Vec F S16x1 .f32) (acc : Vec F S16x4096 .f32) : FVec F S16x4096 .f32 :=
  k0_pay2 (View.ld x2 (Rect.unit (s := S3x4096) ![0, 0] S1x4096.size Facts₀.inb_S3x4096_S1x4096_0_0))
    (View.ld x2 (Rect.unit (s := S3x4096) ![1, 0] S1x4096.size Facts₀.inb_S3x4096_S1x4096_1_0))
    (View.ld x2 (Rect.unit (s := S3x4096) ![2, 0] S1x4096.size Facts₀.inb_S3x4096_S1x4096_2_0)) x3 acc

/-- The middle case leaves the accumulator it found, updated. -/
theorem sout_B (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : ¬cond0_0 i) (hc1 : ¬cond0_1 i)
    (x0 : Vec F S8x16x1024 .f32) (x1 : Vec F S256x4096 .i32) (x2 : Vec F S3x4096 .f32) (x3 : Vec F S16x1 .f32) (xs0 : Vec F S16x4096 .f32) :
    sout0_B_0 c i arg2 harg2 arg3 harg3 arg4 harg4 arg5 harg5 arg6 harg6 arg7 harg7 hc0 hc1 x0 x1 x2 x3 xs0 = accStep i x0 x1 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  simp only [View.readAt_eq_ld, harg2.read_unread, harg3.read_unread, harg7.read_unread, View.ld_unit_zero (S := S16x4096) hz2, View.ld_unit_zero (S := S256x4096) hz2]
  rfl

/-- The reset case leaves the zero block updated. -/
theorem sout_A (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : cond0_0 i) (hc1 : ¬cond0_1 i)
    (x0 : Vec F S8x16x1024 .f32) (x1 : Vec F S256x4096 .i32) (x2 : Vec F S3x4096 .f32) (x3 : Vec F S16x1 .f32) :
    sout0_A_0 c i arg2 harg2 arg3 harg3 arg4 harg4 arg5 harg5 arg6 harg6 arg7 harg7 hc0 hc1 x0 x1 x2 x3 = accStep i x0 x1 (k0_pay3 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S16x4096) hz2]
  simp only [View.readAt_eq_ld, harg2.read_unread, harg3.read_unread, View.readCov_unit_zero (S := S16x4096) _ hz2, View.ld_unit_zero (S := S16x4096) hz2, View.ld_unit_zero (S := S256x4096) hz2]
  rfl

/-- The storing case leaves the accumulator it found, updated, -/
theorem sout_C (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : ¬cond0_0 i) (hc1 : cond0_1 i)
    (x0 : Vec F S8x16x1024 .f32) (x1 : Vec F S256x4096 .i32) (x2 : Vec F S3x4096 .f32) (x3 : Vec F S16x1 .f32) (xs0 : Vec F S16x4096 .f32) :
    sout0_C_0 c i arg2 harg2 arg3 harg3 arg4 harg4 arg5 harg5 arg6 harg6 arg7 harg7 hc0 hc1 x0 x1 x2 x3 xs0 = accStep i x0 x1 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg7.read_unread, View.ld_unit_zero (S := S16x4096) hz2, View.ld_unit_zero (S := S256x4096) hz2]
  rfl

/-- and in the output window's buffer the output block computed from that updated accumulator. -/
theorem out_C (c : Dev nD) (i : grid0.Coords) (arg2 : Memref sig .tc .vmem S8x16x1024 .f32) (harg2 : arg2.IsWhole) (arg3 : Memref sig .tc .vmem S256x4096 .i32) (harg3 : arg3.IsWhole) (arg4 : Memref sig .tc .vmem S3x4096 .f32) (harg4 : arg4.IsWhole) (arg5 : Memref sig .tc .vmem S16x1 .f32) (harg5 : arg5.IsWhole) (arg6 : Memref sig .tc .vmem S16x4096 .f32) (harg6 : arg6.IsWhole) (arg7 : Memref sig .tc .vmem S16x4096 .f32) (harg7 : arg7.IsWhole) (hc0 : ¬cond0_0 i) (hc1 : cond0_1 i)
    (x0 : Vec F S8x16x1024 .f32) (x1 : Vec F S256x4096 .i32) (x2 : Vec F S3x4096 .f32) (x3 : Vec F S16x1 .f32) (xs0 : Vec F S16x4096 .f32) :
    out0_C_4 c i arg2 harg2 arg3 harg3 arg4 harg4 arg5 harg5 arg6 harg6 arg7 harg7 hc0 hc1 x0 x1 x2 x3 xs0 = outOf x2 x3 (accStep i x0 x1 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg7.read_unread, View.readCov_unit_zero (S := S16x4096) _ hz2, View.ld_unit_zero (S := S16x4096) hz2, View.ld_unit_zero (S := S256x4096) hz2, View.ld_unit_zero (S := S16x1) hz2]
  rfl

end Cert.KernelIdeal.Fr

end
-- ==== Proof.Spec.lean ====
/-
  The function both programs compute, stated once over the argument arrays at the ideal instance.

  `qw` packs eight 4-bit weights per 32-bit word: weight `8·p + j` of output channel `o` is nibble `j`
  (bits `4j … 4j+3`) of `qw[p, o]`, an integer in `0 … 15`. With `x : [16, 8192]`, per-channel `s`, `z : [28672, 1]`
  and `b : [28672]` the result at row `r`, channel `o` is

      (Σ_p Σ_j x[r, 8p + j] · nib_j(qw[p, o])) · s[o] − (0 + Σ_k x[r, k]) · z[o] + b[o].

  The double sum is kept in the order (packed row, nibble); the reference contracts over the flat index `8p + j`
  and the kernel over (row block, nibble, row in block): both are regroupings of it, and addition of extended reals is
  commutative and associative, so no finiteness is needed.
-/
import Idealize.ShloMosaic.PureOps.Ideal
import Idealize.ShloMosaic.Lib.ValueIdx

noncomputable section

namespace Cert.Spec

open Idealize.ShloMosaic Idealize.ShloMosaic.ValueIdx

abbrev SX : Shape := ⟨2, ![16, 8192]⟩
abbrev SQ : Shape := ⟨2, ![1024, 28672]⟩
abbrev SC : Shape := ⟨2, ![28672, 1]⟩
abbrev SB : Shape := ⟨1, ![28672]⟩
abbrev SO : Shape := ⟨2, ![16, 28672]⟩

/-- Nibble `j` of a packed word as an extended real: the word shifted right (arithmetically) by `4j`, masked with 15,
    read as a signed integer (it is in `0 … 15`). -/
def nib (w : BitVec 32) (j : Fin 8) : EReal :=
  ((((w.sshiftRight' (BitVec.ofNat 32 (4 * j.val))) &&& 15#32).toInt : ℝ) : EReal)

/-- The quantized dot product of row `r` with channel `o`, summed over packed rows then nibbles. -/
def dotq (x : FVec Ideal SX .f32) (qw : IVec SQ 32) (r : Fin 16) (o : Fin 28672) : EReal :=
  ∑ p : Fin 1024, ∑ j : Fin 8, x (ix2 r (⟨8 * p.val + j.val, by omega⟩ : Fin 8192)) * nib (qw (ix2 p o)) j

/-- The sum of row `r` of `x`. -/
def rowsum (x : FVec Ideal SX .f32) (r : Fin 16) : EReal := ∑ k : Fin 8192, x (ix2 r k)

/-- The result at row `r`, channel `o`. -/
def Gat (x : FVec Ideal SX .f32) (qw : IVec SQ 32) (s z : FVec Ideal SC .f32) (b : FVec Ideal SB .f32)
    (r : Fin 16) (o : Fin 28672) : EReal :=
  dotq x qw r o * s (ix2 o (0 : Fin 1)) - (0 + rowsum x r) * z (ix2 o (0 : Fin 1)) + b (ix1 o)

/-- The whole result array. -/
def G (x : FVec Ideal SX .f32) (qw : IVec SQ 32) (s z : FVec Ideal SC .f32) (b : FVec Ideal SB .f32) :
    FVec Ideal SO .f32 :=
  fun i => Gat x qw s z b (i 0) (i 1)

theorem G_ix2 (x : FVec Ideal SX .f32) (qw : IVec SQ 32) (s z : FVec Ideal SC .f32) (b : FVec Ideal SB .f32)
    (r : Fin 16) (o : Fin 28672) : G x qw s z b (ix2 r o) = Gat x qw s z b r o := rfl

end Cert.Spec

end
-- ==== Proof.PayValue.lean ====
/-
  The kernel body's arithmetic at the ideal instance, read at an index.

  Per grid step the body adds to the accumulator, for each nibble plane j = 0 … 7, the product of the
  [16, 256] slab x_j with the [256, 4096] matrix of nibble j of the loaded words. At the ideal instance a change of
  float format is the identity, an integer converts to the real it denotes, and a product into a zero accumulator is
  the plain sum over the contraction index, so at (r, o) the step adds Σ_j Σ_p x_j[0, r, p] · nib_j(w[p, o]).
  The epilogue is acc · s − sx · z + b with the three rows broadcast down the 16 rows and the column across the lanes.
-/
import proofs.«429149_j18373870092919_3_alg».proof.Proof.Gen.KernelIdeal.Skeleton
import proofs.«429149_j18373870092919_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-! ## The product's operand indices -/

/-- The output's row is the left operand's row. -/
theorem lhs_axis0 (i : S16x4096.Idx) (q : dot_S16x256_S256x4096_S16x4096_1_0_0_1_n_n.contr.Idx) :
    (dot_S16x256_S256x4096_S16x4096_1_0_0_1_n_n.lhsIdx i q 0).val = (i 0).val := by
  unfold DotDims.lhsIdx
  rw [dif_neg (show ¬(0 : Fin S16x256.rank) ∈ dot_S16x256_S256x4096_S16x4096_1_0_0_1_n_n.lhsBatch by decide), dif_pos (show (0 : Fin S16x256.rank) ∈ dot_S16x256_S256x4096_S16x4096_1_0_0_1_n_n.lhsNonContracting by decide)]
  rfl
/-- The left operand's column is the contraction coordinate. -/
theorem lhs_axis1 (i : S16x4096.Idx) (q : dot_S16x256_S256x4096_S16x4096_1_0_0_1_n_n.contr.Idx) :
    (dot_S16x256_S256x4096_S16x4096_1_0_0_1_n_n.lhsIdx i q 1).val = (q ⟨0, by decide⟩).val :=
  dot_S16x256_S256x4096_S16x4096_1_0_0_1_n_n.lhsIdx_val_of_single rfl i q
/-- The right operand's row is the contraction coordinate. -/
theorem rhs_axis0 (i : S16x4096.Idx) (q : dot_S16x256_S256x4096_S16x4096_1_0_0_1_n_n.contr.Idx) :
    (dot_S16x256_S256x4096_S16x4096_1_0_0_1_n_n.rhsIdx i q 0).val = (q ⟨0, by decide⟩).val :=
  dot_S16x256_S256x4096_S16x4096_1_0_0_1_n_n.rhsIdx_val_of_single rfl i q
/-- The output's column is the right operand's column. -/
theorem rhs_axis1 (i : S16x4096.Idx) (q : dot_S16x256_S256x4096_S16x4096_1_0_0_1_n_n.contr.Idx) :
    (dot_S16x256_S256x4096_S16x4096_1_0_0_1_n_n.rhsIdx i q 1).val = (i 1).val := by
  unfold DotDims.rhsIdx
  rw [dif_neg (show ¬(1 : Fin S256x4096.rank) ∈ dot_S16x256_S256x4096_S16x4096_1_0_0_1_n_n.rhsBatch by decide), dif_pos (show (1 : Fin S256x4096.rank) ∈ dot_S16x256_S256x4096_S16x4096_1_0_0_1_n_n.rhsNonContracting by decide)]
  rfl

/-- A [16, 256] by [256, 4096] product into the zero accumulator, at (r, o): the sum over the 256 contraction
    positions of the operands' products. -/
theorem prod_apply (a : FVec Ideal S16x256 .bf16) (w : FVec Ideal S256x4096 .bf16) (r : Fin 16) (o : Fin 4096) :
    matmul dot_S16x256_S256x4096_S16x4096_1_0_0_1_n_n none a w (constant (F := Ideal) S16x4096 .f32 0x00000000#32) (ix2 r o)
      = ∑ p : Fin 256, a (ix2 r p) * w (ix2 p o) := by
  simp only [matmul]
  rw [Ideal.matmul_constant_zero_apply, ← Equiv.sum_comp (contrEquiv1 dot_S16x256_S256x4096_S16x4096_1_0_0_1_n_n 256 rfl rfl).symm]
  refine Finset.sum_congr rfl fun k _ => ?_
  have hk := contrEquiv1_symm_val dot_S16x256_S256x4096_S16x4096_1_0_0_1_n_n 256 rfl rfl k
  have el : dot_S16x256_S256x4096_S16x4096_1_0_0_1_n_n.lhsIdx (ix2 r o) ((contrEquiv1 dot_S16x256_S256x4096_S16x4096_1_0_0_1_n_n 256 rfl rfl).symm k) = ix2 r k := funext fun a => Fin.ext (by
    match a with
    | ⟨0, _⟩ => exact lhs_axis0 _ _
    | ⟨1, _⟩ => exact (lhs_axis1 _ _).trans hk)
  have er : dot_S16x256_S256x4096_S16x4096_1_0_0_1_n_n.rhsIdx (ix2 r o) ((contrEquiv1 dot_S16x256_S256x4096_S16x4096_1_0_0_1_n_n 256 rfl rfl).symm k) = ix2 k o := funext fun a => Fin.ext (by
    match a with
    | ⟨0, _⟩ => exact (rhs_axis0 _ _).trans hk
    | ⟨1, _⟩ => exact rhs_axis1 _ _)
  rw [el, er]

/-! ## One nibble plane -/

/-- The weight of plane j at a word: the word shifted right arithmetically by 4j (a shift below 32 is the plain
    arithmetic shift), masked with 15, converted as a signed integer. -/
theorem weight_apply (v5 : Vec Ideal S256x4096 .i32) (j : Fin 8) (c : BitVec 32) (hc : c = BitVec.ofNat 32 (4 * j.val))
    (i : S256x4096.Idx) :
    (sitofp .bf16 (andi (shrsi v5 (broadcast S256x4096 c)) (broadcast S256x4096 15#32)) : FVec Ideal S256x4096 .bf16) i
      = Cert.Spec.nib (v5 i) j := by
  subst hc
  have h : (BitVec.ofNat 32 (4 * j.val)).toNat < 32 := by
    rw [BitVec.toNat_ofNat]; have := j.isLt; omega
  show (((IntOp.andi (IntOp.shrsi .vector (v5 i) (BitVec.ofNat 32 (4 * j.val))) 15#32).toInt : ℝ) : EReal) = _
  unfold IntOp.shrsi
  rw [if_pos h]
  rfl

/-- A slab x of shape [1, 16, 256], its unit axis dropped and its format narrowed, times any [256, 4096] matrix, into the
    zero accumulator: at (r, o) the sum over p of x[0, r, p] times the matrix at (p, o). -/
theorem slab_apply (x : Vec Ideal S1x16x256 .f32) (w : FVec Ideal S256x4096 .bf16)
    (h : S1x16x256.ShapeCasts S16x256) (hb : FTy.bits .bf16 < FTy.bits .f32) (r : Fin 16) (o : Fin 4096) :
    matmul dot_S16x256_S256x4096_S16x4096_1_0_0_1_n_n none (truncf .bf16 (shapeCast S16x256 x h) hb) w
        (constant (F := Ideal) S16x4096 .f32 0x00000000#32) (ix2 r o)
      = ∑ p : Fin 256, x (ix3 (0 : Fin 1) r p) * w (ix2 p o) := by
  rw [prod_apply]
  refine Finset.sum_congr rfl fun p _ => ?_
  rw [truncf_apply, shapeCast_1ab_ab_apply]

/-- The same with the matrix the nibble plane j of the loaded words. -/
theorem plane_apply (v5 : Vec Ideal S256x4096 .i32) (x : Vec Ideal S1x16x256 .f32) (j : Fin 8) (c : BitVec 32)
    (hc : c = BitVec.ofNat 32 (4 * j.val)) (h : S1x16x256.ShapeCasts S16x256) (hb : FTy.bits .bf16 < FTy.bits .f32)
    (r : Fin 16) (o : Fin 4096) :
    matmul dot_S16x256_S256x4096_S16x4096_1_0_0_1_n_n none (truncf .bf16 (shapeCast S16x256 x h) hb)
        (sitofp .bf16 (andi (shrsi v5 (broadcast S256x4096 c)) (broadcast S256x4096 15#32)))
        (constant (F := Ideal) S16x4096 .f32 0x00000000#32) (ix2 r o)
      = ∑ p : Fin 256, x (ix3 (0 : Fin 1) r p) * Cert.Spec.nib (v5 (ix2 p o)) j := by
  rw [slab_apply]
  refine Finset.sum_congr rfl fun p _ => ?_
  rw [weight_apply v5 j c hc]

/-! ## The payloads at an index -/

/-- Plane 2's weights. -/
theorem pay5_apply (v5 : Vec Ideal S256x4096 .i32) (i : S256x4096.Idx) :
    k0_pay5 (F := Ideal) v5 i = Cert.Spec.nib (v5 i) 2 :=
  weight_apply v5 2 8#32 rfl i

/-- Plane 6's weights. -/
theorem pay7_apply (v5 : Vec Ideal S256x4096 .i32) (i : S256x4096.Idx) :
    k0_pay7 (F := Ideal) v5 i = Cert.Spec.nib (v5 i) 6 :=
  weight_apply v5 6 24#32 rfl i

/-- The accumulator plus planes 0 and 1. -/
theorem pay4_apply (v5 : Vec Ideal S256x4096 .i32) (v6 : Vec Ideal S16x4096 .f32) (x0 x1 : Vec Ideal S1x16x256 .f32)
    (r : Fin 16) (o : Fin 4096) :
    k0_pay4 (F := Ideal) v5 v6 x0 x1 (ix2 r o)
      = v6 (ix2 r o) + (∑ p : Fin 256, x0 (ix3 (0 : Fin 1) r p) * Cert.Spec.nib (v5 (ix2 p o)) 0)
          + ∑ p : Fin 256, x1 (ix3 (0 : Fin 1) r p) * Cert.Spec.nib (v5 (ix2 p o)) 1 := by
  dsimp only [k0_pay4]
  rw [addf_apply, addf_apply, plane_apply v5 x0 0 0#32 rfl, plane_apply v5 x1 1 4#32 rfl]

/-- The running sum plus plane 2 (its weights handed in) and planes 3, 4, 5. -/
theorem pay6_apply (v5 : Vec Ideal S256x4096 .i32) (v28 : FVec Ideal S16x4096 .f32) (v33 : FVec Ideal S256x4096 .bf16)
    (x2 x3 x4 x5 : Vec Ideal S1x16x256 .f32) (r : Fin 16) (o : Fin 4096) :
    k0_pay6 (F := Ideal) v5 v28 v33 x2 x3 x4 x5 (ix2 r o)
      = v28 (ix2 r o) + (∑ p : Fin 256, x2 (ix3 (0 : Fin 1) r p) * v33 (ix2 p o))
          + (∑ p : Fin 256, x3 (ix3 (0 : Fin 1) r p) * Cert.Spec.nib (v5 (ix2 p o)) 3)
          + (∑ p : Fin 256, x4 (ix3 (0 : Fin 1) r p) * Cert.Spec.nib (v5 (ix2 p o)) 4)
          + ∑ p : Fin 256, x5 (ix3 (0 : Fin 1) r p) * Cert.Spec.nib (v5 (ix2 p o)) 5 := by
  dsimp only [k0_pay6]
  rw [addf_apply, addf_apply, addf_apply, addf_apply, slab_apply x2 v33, plane_apply v5 x3 3 12#32 rfl,
    plane_apply v5 x4 4 16#32 rfl, plane_apply v5 x5 5 20#32 rfl]

/-- The running sum plus plane 6 (its weights handed in) and plane 7; the closing cast keeps the shape. -/
theorem pay1_apply (v5 : Vec Ideal S256x4096 .i32) (v72 : FVec Ideal S16x4096 .f32) (v77 : FVec Ideal S256x4096 .bf16)
    (x6 x7 : Vec Ideal S1x16x256 .f32) (r : Fin 16) (o : Fin 4096) :
    k0_pay1 (F := Ideal) v5 v72 v77 x6 x7 (ix2 r o)
      = v72 (ix2 r o) + (∑ p : Fin 256, x6 (ix3 (0 : Fin 1) r p) * v77 (ix2 p o))
          + ∑ p : Fin 256, x7 (ix3 (0 : Fin 1) r p) * Cert.Spec.nib (v5 (ix2 p o)) 7 := by
  dsimp only [k0_pay1]
  rw [shapeCast_self, addf_apply, addf_apply, slab_apply x6 v77, plane_apply v5 x7 7 28#32 rfl]

/-- The zero accumulator. -/
theorem pay3_apply (r : Fin 16) (o : Fin 4096) : k0_pay3 (F := Ideal) (ix2 r o) = 0 := by
  dsimp only [k0_pay3]
  rw [shapeCast_self]
  exact Ideal.ofBits_zero_f32

/-- A [16, 1] column broadcast across the lanes reads, at (r, o), the column at r. -/
theorem column_apply (v : FVec Ideal S16x1 .f32) (h : S16x1.Broadcasts S16x4096) (r : Fin 16) (o : Fin 4096) :
    broadcastTo S16x4096 v h (ix2 r o) = v (ix2 r (0 : Fin 1)) := by
  refine broadcastTo_apply v h (ix2 r o) (ix2 r (0 : Fin 1)) fun ax => ?_
  match ax with
  | ⟨0, _⟩ => rfl
  | ⟨1, _⟩ => rfl

/-- The epilogue: the accumulator times the scale row, minus the row sums' column times the zero-point row, plus the
    bias row. -/
theorem pay2_apply (v101 v103 v105 : Vec Ideal S1x4096 .f32) (v107 : Vec Ideal S16x1 .f32) (v109 : Vec Ideal S16x4096 .f32)
    (r : Fin 16) (o : Fin 4096) :
    k0_pay2 (F := Ideal) v101 v103 v105 v107 v109 (ix2 r o)
      = v109 (ix2 r o) * v101 (ix2 (0 : Fin 1) o) - v107 (ix2 r (0 : Fin 1)) * v103 (ix2 (0 : Fin 1) o)
          + v105 (ix2 (0 : Fin 1) o) := by
  dsimp only [k0_pay2]
  rw [addf_apply, subf_apply, mulf_apply, mulf_apply, shapeCast_self, shapeCast_self, shapeCast_self, shapeCast_self,
    broadcastTo_1b_ab_apply, broadcastTo_1b_ab_apply, broadcastTo_1b_ab_apply, column_apply]

/-! ## One grid step -/

/-- One grid step's accumulator update: the eight payload pieces composed as the body composes them. -/
def step (v5 : Vec Ideal S256x4096 .i32) (v6 : Vec Ideal S16x4096 .f32)
    (x0 x1 x2 x3 x4 x5 x6 x7 : Vec Ideal S1x16x256 .f32) : FVec Ideal S16x4096 .f32 :=
  k0_pay1 (F := Ideal) v5 (k0_pay6 v5 (k0_pay4 v5 v6 x0 x1) (k0_pay5 v5) x2 x3 x4 x5) (k0_pay7 v5) x6 x7

/-- At (r, o) a step adds to the accumulator the sum over the eight planes j and the 256 packed rows p of
    x_j[0, r, p] times nibble j of the word at (p, o). -/
theorem step_apply (v5 : Vec Ideal S256x4096 .i32) (v6 : Vec Ideal S16x4096 .f32)
    (x0 x1 x2 x3 x4 x5 x6 x7 : Vec Ideal S1x16x256 .f32) (r : Fin 16) (o : Fin 4096) :
    step v5 v6 x0 x1 x2 x3 x4 x5 x6 x7 (ix2 r o)
      = v6 (ix2 r o) + ∑ j : Fin 8, ∑ p : Fin 256,
          (![x0, x1, x2, x3, x4, x5, x6, x7] j) (ix3 (0 : Fin 1) r p) * Cert.Spec.nib (v5 (ix2 p o)) j := by
  unfold step
  rw [pay1_apply, pay6_apply, pay4_apply]
  simp only [pay5_apply, pay7_apply]
  rw [Fin.sum_univ_eight]
  simp only [add_assoc]
  rfl

end Cert.KernelIdeal.PayValue

end
-- ==== Proof.IdealAccum.lean ====
/-
  The accumulator over the grid, at the ideal instance. A grid point's update adds, at row `r` and channel `o` of the
  tile, the sum over the eight nibble planes `j` and the 256 weight rows `p` of the point's block of
  (plane `j` of `x` at row `r`, column `p` of the point's 256) · (nibble `j` of the weight word at row `p`, channel `o`).
  So after the point where the second grid coordinate is 0 the accumulator is `0 +` that term, after each later
  point of the tile what the point before left plus its own term, and at the tile's last point the output block is
  the accumulator times the scale row, minus the row sum times the zero-point row, plus the bias row.
-/
import proofs.«429149_j18373870092919_3_alg».proof.Proof.IdealPieces
import proofs.«429149_j18373870092919_3_alg».proof.Proof.PayValue

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ)

/-- The eight plane operands of point `t`. -/
abbrev planes (c : Dev nD) (t : Fin cfg0.N) : Fin 8 → Vec Ideal S1x16x256 .f32 :=
  ![xld1 (grid0.coords t) (iblk m c 0 t), xld2 (grid0.coords t) (iblk m c 0 t), xld3 (grid0.coords t) (iblk m c 0 t), xld4 (grid0.coords t) (iblk m c 0 t), xld5 (grid0.coords t) (iblk m c 0 t), xld6 (grid0.coords t) (iblk m c 0 t), xld7 (grid0.coords t) (iblk m c 0 t), xld8 (grid0.coords t) (iblk m c 0 t)]

/-- Point `t`'s contribution to the accumulator at row `r`, channel `o` of the tile, over the point's blocks. -/
def termB (c : Dev nD) (t : Fin cfg0.N) (r : Fin 16) (o : Fin 4096) : EReal :=
  ∑ j : Fin 8, ∑ p : Fin 256, (planes m c t j) (ix3 (0 : Fin 1) r p) * Cert.Spec.nib ((iblk m c 1 t : Vec Ideal S256x4096 .i32) (ix2 p o)) j

/-- One point's update read at an index: what was there plus the point's term. -/
theorem accStep_apply (c : Dev nD) (t : Fin cfg0.N) (acc : Vec Ideal S16x4096 .f32) (r : Fin 16) (o : Fin 4096) :
    accStep (grid0.coords t) (iblk m c 0 t) (iblk m c 1 t) acc (ix2 r o) = acc (ix2 r o) + termB m c t r o :=
  PayValue.step_apply (iblk m c 1 t) acc (xld1 (grid0.coords t) (iblk m c 0 t)) (xld2 (grid0.coords t) (iblk m c 0 t)) (xld3 (grid0.coords t) (iblk m c 0 t)) (xld4 (grid0.coords t) (iblk m c 0 t)) (xld5 (grid0.coords t) (iblk m c 0 t)) (xld6 (grid0.coords t) (iblk m c 0 t)) (xld7 (grid0.coords t) (iblk m c 0 t)) (xld8 (grid0.coords t) (iblk m c 0 t)) r o

/-- After a point where the accumulator is reset. -/
theorem acc_first (c : Dev nD) (n : ℕ) (hn : n < cfg0.N) (h0 : n % 4 = 0) (r : Fin 16) (o : Fin 4096) :
    (outsAt0 m c n hn).2 (ix2 r o) = 0 + termB m c ⟨n, hn⟩ r o := by
  have h1 : ¬(⟨n, hn⟩ : Fin cfg0.N).val % 4 = 3 := by show ¬n % 4 = 3; omega
  rw [show outsAt0 m c n hn = _ from outsAt0_A m c ⟨n, hn⟩ h0 h1]
  dsimp only
  rw [sout_A, accStep_apply, PayValue.pay3_apply]

/-- After any other point: what the point before left, plus the point's term. -/
theorem acc_next (c : Dev nD) (n : ℕ) (hn : n + 1 < cfg0.N) (h0 : ¬(n + 1) % 4 = 0) (r : Fin 16) (o : Fin 4096) :
    (outsAt0 m c (n + 1) hn).2 (ix2 r o) = (outsAt0 m c n (Nat.lt_of_succ_lt hn)).2 (ix2 r o) + termB m c ⟨n + 1, hn⟩ r o := by
  by_cases h1 : (n + 1) % 4 = 3
  · rw [show outsAt0 m c (n + 1) hn = _ from outsAt0_C m c ⟨n + 1, hn⟩ h0 h1]
    dsimp only
    rw [sout_C, accStep_apply]
    rfl
  · rw [show outsAt0 m c (n + 1) hn = _ from outsAt0_B m c ⟨n + 1, hn⟩ h0 h1]
    dsimp only
    rw [sout_B, accStep_apply]
    rfl

/-- The point's blocks of the stacked per-channel rows and of the row sums, and the three rows, at their literal types. -/
abbrev blkP (c : Dev nD) (t : Fin cfg0.N) : Vec Ideal S3x4096 .f32 := iblk m c 2 t
abbrev blkS (c : Dev nD) (t : Fin cfg0.N) : Vec Ideal S16x1 .f32 := iblk m c 3 t
abbrev scaleRow (c : Dev nD) (t : Fin cfg0.N) : Vec Ideal S1x4096 .f32 :=
  View.ld (blkP m c t) (Rect.unit (s := S3x4096) ![0, 0] S1x4096.size Facts₀.inb_S3x4096_S1x4096_0_0)
abbrev zeroRow (c : Dev nD) (t : Fin cfg0.N) : Vec Ideal S1x4096 .f32 :=
  View.ld (blkP m c t) (Rect.unit (s := S3x4096) ![1, 0] S1x4096.size Facts₀.inb_S3x4096_S1x4096_1_0)
abbrev biasRow (c : Dev nD) (t : Fin cfg0.N) : Vec Ideal S1x4096 .f32 :=
  View.ld (blkP m c t) (Rect.unit (s := S3x4096) ![2, 0] S1x4096.size Facts₀.inb_S3x4096_S1x4096_2_0)
/-- The accumulator after position `n`, at its literal type. -/
abbrev accAt (c : Dev nD) (n : ℕ) (hn : n < cfg0.N) : Vec Ideal S16x4096 .f32 := (outsAt0 m c n hn).2

/-- At a tile's last point the output window's buffer holds the epilogue of the accumulator that point leaves. -/
theorem out_last (c : Dev nD) (n : ℕ) (hn : n + 1 < cfg0.N) (h1 : (n + 1) % 4 = 3) (r : Fin 16) (o : Fin 4096) :
    (outsAt0 m c (n + 1) hn).1 (ix2 r o)
      = accAt m c (n + 1) hn (ix2 r o) * scaleRow m c ⟨n + 1, hn⟩ (ix2 (0 : Fin 1) o)
        - blkS m c ⟨n + 1, hn⟩ (ix2 r (0 : Fin 1)) * zeroRow m c ⟨n + 1, hn⟩ (ix2 (0 : Fin 1) o)
        + biasRow m c ⟨n + 1, hn⟩ (ix2 (0 : Fin 1) o) := by
  have h0 : ¬(n + 1) % 4 = 0 := by omega
  unfold accAt
  rw [show outsAt0 m c (n + 1) hn = _ from outsAt0_C m c ⟨n + 1, hn⟩ h0 h1]
  dsimp only
  rw [out_C, sout_C]
  unfold outOf
  rw [PayValue.pay2_apply]

end Cert.KernelIdeal.Fr

end
-- ==== Proof.LibNary3.lean ====
/-
  A host operation that reads a literal family of THREE references (a concatenate of three pieces), read at its result
  reference: the value of its function at the three operands' contents, each named at its own reference.
-/
import Idealize.ShloMosaic.Lib.StableHlo.Run

noncomputable section

namespace Idealize.ShloMosaic.StableHlo

variable {nD : Nat} {τ : Topo} {sig : RefSig} {Val : EltTy → Type}

section Nary3

variable {x a b y : Ref sig .tc}

/-- The operation `nary ![x, a, b] y f` over a LITERAL family of three references (a three-piece concatenate):
    at its result reference `y` the contents are `f` of the three operands' contents, the operand at position `0`
    being the contents AT the reference `x`, at `1` those at `a`, at `2` those at `b` — the family
    `Fin.cons (F x) (Fin.cons (F a) (Fin.cons (F b) _))` in place of `fun k => F (![x, a, b] k)`. With the operands
    named at their own references, each operand's contents can in turn be rewritten to what the operation that wrote it
    computed; under the binder `k` the reference `![x, a, b] k` is no literal and nothing applies to it. The two families
    agree position by position (three cases, each by unfolding the literal vector). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- `nary3_result` with the result reference un-indexed, the form a single simplification pass over a line of
    operations matches on (the same statement; the marker is the identity). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Nary3

end Idealize.ShloMosaic.StableHlo

end
-- ==== Proof.PrefixValue.lean ====
/-
  What the host operations before the kernel's call leave in the arrays the call's windows stage, read at an index at the
  ideal values.
-/
import proofs.«429149_j18373870092919_3_alg».proof.Proof.Gen.KernelIdeal.Launch
import proofs.«429149_j18373870092919_3_alg».proof.Proof.LibNary3
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.PrefixValue

open Cert.KernelIdeal Cert.KernelIdeal.Gen Idealize.ShloMosaic Idealize.ShloMosaic.TcCoe
open Idealize.ShloMosaic.ValueIdx

/-! ## The four layout chains over variable arrays -/

/-- `x` viewed as [16, 1024, 8] and its axes permuted to [8, 16, 1024], at (j, r, p): `x` at (r, 8p + j). -/
theorem xperm_apply (x : FVec Ideal S16x8192 .f32) (j : Fin 8) (r : Fin 16) (p : Fin 1024) :
    transpose S8x16x1024 [2, 0, 1] (shapeCast S16x1024x8 x shapeCasts_S16x8192_S16x1024x8)
        transposes_S16x1024x8_S8x16x1024_2_0_1 (ix3 j r p)
      = x (ix2 r (⟨8 * p.val + j.val, by omega⟩ : Fin 8192)) := by
  refine (transpose_apply _ _ _ (ix3 j r p) (ix3 r p j) ?_).trans ?_
  · intro b
    match b with
    | ⟨0, _⟩ => rfl
    | ⟨1, _⟩ => rfl
    | ⟨2, _⟩ => rfl
  · refine shapeCast_apply _ _ (ix3 r p j) (ix2 r (⟨8 * p.val + j.val, by omega⟩ : Fin 8192)) ?_
    rw [Shape.rowMajor_val_two, Shape.rowMajor_val_three]
    show r.val * 8192 + (8 * p.val + j.val) = (r.val * 1024 + p.val) * 8 + j.val
    omega

/-- A [28672, 1] column viewed as a [1, 28672] row, at (0, o): the column at (o, 0). -/
theorem row_of_col_apply (x : FVec Ideal S28672x1 .f32) (o : Fin 28672) :
    shapeCast S1x28672 x shapeCasts_S28672x1_S1x28672 (ix2 (0 : Fin 1) o) = x (ix2 o (0 : Fin 1)) := by
  refine shapeCast_apply _ _ (ix2 (0 : Fin 1) o) (ix2 o (0 : Fin 1)) ?_
  rw [Shape.rowMajor_val_two, Shape.rowMajor_val_two]
  show o.val * 1 + 0 = 0 * 28672 + o.val
  omega

/-- A [28672] vector viewed as a [1, 28672] row, at (0, o): the vector at o. -/
theorem row_of_vec_apply (x : FVec Ideal S28672 .f32) (o : Fin 28672) :
    shapeCast S1x28672 x shapeCasts_S28672_S1x28672 (ix2 (0 : Fin 1) o) = x (ix1 o) := by
  refine shapeCast_apply _ _ (ix2 (0 : Fin 1) o) (ix1 o) ?_
  rw [Shape.rowMajor_val_one, Shape.rowMajor_val_two]
  show o.val = 0 * 28672 + o.val
  omega

/-- Three [1, 28672] rows stacked along axis 0, at (0, o): the first row at (0, o). -/
theorem stack3_apply0 (x0 x1 x2 : FVec Ideal S1x28672 .f32) (o : Fin 28672) :
    concatenate S3x28672 0 [⟨S1x28672, x0⟩, ⟨S1x28672, x1⟩, ⟨S1x28672, x2⟩]
        concatenates_S1x28672_S1x28672_S1x28672_S3x28672_d0 (ix2 (0 : Fin 3) o) = x0 (ix2 (0 : Fin 1) o) := by
  refine concatenate_apply_piece (t := S3x28672) (0 : Fin 2) [⟨S1x28672, x0⟩, ⟨S1x28672, x1⟩, ⟨S1x28672, x2⟩]
    concatenates_S1x28672_S1x28672_S1x28672_S3x28672_d0 (ix2 (0 : Fin 3) o) 0 (by show 0 < 3; omega) S1x28672 x0 rfl rfl 0 rfl
    (ix2 (0 : Fin 1) o) ?_ rfl
  intro b hb
  match b, hb with
  | ⟨0, _⟩, hb => exact absurd rfl hb
  | ⟨1, _⟩, _ => rfl

/-- … at (1, o): the second row at (0, o). -/
theorem stack3_apply1 (x0 x1 x2 : FVec Ideal S1x28672 .f32) (o : Fin 28672) :
    concatenate S3x28672 0 [⟨S1x28672, x0⟩, ⟨S1x28672, x1⟩, ⟨S1x28672, x2⟩]
        concatenates_S1x28672_S1x28672_S1x28672_S3x28672_d0 (ix2 (1 : Fin 3) o) = x1 (ix2 (0 : Fin 1) o) := by
  refine concatenate_apply_piece (t := S3x28672) (0 : Fin 2) [⟨S1x28672, x0⟩, ⟨S1x28672, x1⟩, ⟨S1x28672, x2⟩]
    concatenates_S1x28672_S1x28672_S1x28672_S3x28672_d0 (ix2 (1 : Fin 3) o) 1 (by show 1 < 3; omega) S1x28672 x1 rfl rfl 1 rfl
    (ix2 (0 : Fin 1) o) ?_ rfl
  intro b hb
  match b, hb with
  | ⟨0, _⟩, hb => exact absurd rfl hb
  | ⟨1, _⟩, _ => rfl

/-- … at (2, o): the third row at (0, o). -/
theorem stack3_apply2 (x0 x1 x2 : FVec Ideal S1x28672 .f32) (o : Fin 28672) :
    concatenate S3x28672 0 [⟨S1x28672, x0⟩, ⟨S1x28672, x1⟩, ⟨S1x28672, x2⟩]
        concatenates_S1x28672_S1x28672_S1x28672_S3x28672_d0 (ix2 (2 : Fin 3) o) = x2 (ix2 (0 : Fin 1) o) := by
  refine concatenate_apply_piece (t := S3x28672) (0 : Fin 2) [⟨S1x28672, x0⟩, ⟨S1x28672, x1⟩, ⟨S1x28672, x2⟩]
    concatenates_S1x28672_S1x28672_S1x28672_S3x28672_d0 (ix2 (2 : Fin 3) o) 2 (by show 2 < 3; omega) S1x28672 x2 rfl rfl 2 rfl
    (ix2 (0 : Fin 1) o) ?_ rfl
  intro b hb
  match b, hb with
  | ⟨0, _⟩, hb => exact absurd rfl hb
  | ⟨1, _⟩, _ => rfl

/-- The row sums of `x` from the initial value zero, kept as a [16, 1] column, at (r, 0): `0 + Σ_k x[r, k]`. -/
theorem sumx_apply (x : FVec Ideal S16x8192 .f32) (r : Fin 16) :
    broadcastInDim S16x1 ![0] bcast_S16_S16x1_0
        (Host.reduceAdd x (constant (F := Ideal) S_ .f32 0x00000000#32) reducesTo_S16x8192_S16_d1 h_S_) (ix2 r (0 : Fin 1))
      = 0 + ∑ k : Fin 8192, x (ix2 r k) := by
  refine (broadcastInDim_apply _ _ _ (ix2 r (0 : Fin 1)) (ix1 r) ?_).trans ?_
  · intro a
    match a with
    | ⟨0, _⟩ => rfl
  · rw [hostReduceAdd_apply]
    have h : S16x8192.Reduces [1] S16 := by decide
    rw [Ideal.hostReduceAdd_single reducesTo_S16x8192_S16_d1 h]
    show Ideal.ofBits .f32 0x00000000#32 + ∑ k : Fin 8192, x (h.lift (ix1 r) k) = _
    rw [Ideal.ofBits_zero_f32]
    congr 1
    refine Finset.sum_congr rfl fun k _ => congrArg x ?_
    funext a
    match a with
    | ⟨0, _⟩ => exact Fin.ext rfl
    | ⟨1, _⟩ => exact Fin.ext rfl

section Defs
variable {F : FTy → Type} [FloatOps F]
variable (m : (ℓ : Loc nD τ sig) → Buf (Elt F) ℓ)

/-- Core `c`'s array contents when the call is entered: after the host operations before it, from the memory `m`. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)
end Defs

variable (m : (ℓ : Loc nD τ sig) → Buf (Elt Ideal) ℓ)

/-- The array after a line of host operations, read at one reference: each operation's result at its own result
    reference is its function's value, at any other reference what was there; the three-piece concatenate's operands are
    named at their own references so that the operations that wrote them are opened in turn. -/
local macro "line_results" : tactic =>
  `(tactic| (simp only [StableHlo.after_cons, StableHlo.after_nil]
             repeat (first
               | rw [StableHlo.nullary_result] | rw [StableHlo.unary_result] | rw [StableHlo.binary_result]
               | rw [StableHlo.reshape_result] | rw [StableHlo.nary3_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

/-- The permuted activations the first window stages: at (j, r, p) the argument `x` at (r, 8p + j). -/
theorem V_xperm (c : Dev nD) (j : Fin 8) (r : Fin 16) (p : Fin 1024) :
    (V m c main_v7 : FVec Ideal S8x16x1024 .f32) (ix3 j r p)
      = (m ((c : Thread nD τ).loc main_arg0) : FVec Ideal S16x8192 .f32) (ix2 r (⟨8 * p.val + j.val, by omega⟩ : Fin 8192)) := by
  have e : (V m c main_v7 : S8x16x1024.Idx → EReal)
      = transpose S8x16x1024 [2, 0, 1]
          (shapeCast S16x1024x8 (m ((c : Thread nD τ).loc main_arg0) : FVec Ideal S16x8192 .f32)
            shapeCasts_S16x8192_S16x1024x8)
          transposes_S16x1024x8_S8x16x1024_2_0_1 := by
    dsimp only [V, V0]
    simp only [hostOps0, List.flatten_cons, List.flatten_nil, List.append_nil]
    line_results
    rfl
  rw [e]
  exact xperm_apply _ j r p

/-- The row sums the fourth window stages: at (r, 0) zero plus the sum of row `r` of `x`. -/
theorem V_sumx (c : Dev nD) (r : Fin 16) :
    (V m c main_v1 : FVec Ideal S16x1 .f32) (ix2 r (0 : Fin 1))
      = 0 + @Finset.sum (Fin 8192) EReal _ Finset.univ
          (fun k => (m ((c : Thread nD τ).loc main_arg0) : FVec Ideal S16x8192 .f32) (ix2 r k)) := by
  have e : (V m c main_v1 : S16x1.Idx → EReal)
      = broadcastInDim S16x1 ![0] bcast_S16_S16x1_0
          (Host.reduceAdd (m ((c : Thread nD τ).loc main_arg0) : FVec Ideal S16x8192 .f32)
            (constant (F := Ideal) S_ .f32 0x00000000#32) reducesTo_S16x8192_S16_d1 h_S_) := by
    dsimp only [V, V0]
    simp only [hostOps0, List.flatten_cons, List.flatten_nil, List.append_nil]
    line_results
  rw [e]
  exact sumx_apply _ r

/-- The stacked per-channel parameters the third window stages, as one term. -/
theorem V_params_eq (c : Dev nD) :
    (V m c main_v5 : S3x28672.Idx → EReal)
      = concatenate S3x28672 0
          [⟨S1x28672, shapeCast S1x28672 (m ((c : Thread nD τ).loc main_arg2) : FVec Ideal S28672x1 .f32) shapeCasts_S28672x1_S1x28672⟩,
           ⟨S1x28672, shapeCast S1x28672 (m ((c : Thread nD τ).loc main_arg3) : FVec Ideal S28672x1 .f32) shapeCasts_S28672x1_S1x28672⟩,
           ⟨S1x28672, shapeCast S1x28672 (m ((c : Thread nD τ).loc main_arg4) : FVec Ideal S28672 .f32) shapeCasts_S28672_S1x28672⟩]
          concatenates_S1x28672_S1x28672_S1x28672_S3x28672_d0 := by
  dsimp only [V, V0]
  simp only [hostOps0, List.flatten_cons, List.flatten_nil, List.append_nil]
  line_results
  rfl

/-- The scales the third window stages in row 0: at (0, o) the argument `s` at (o, 0). -/
theorem V_params0 (c : Dev nD) (o : Fin 28672) :
    (V m c main_v5 : FVec Ideal S3x28672 .f32) (ix2 (0 : Fin 3) o)
      = (m ((c : Thread nD τ).loc main_arg2) : FVec Ideal S28672x1 .f32) (ix2 o (0 : Fin 1)) := by
  rw [V_params_eq m c, stack3_apply0]
  exact row_of_col_apply _ o

/-- The zero points in row 1: at (1, o) the argument `z` at (o, 0). -/
theorem V_params1 (c : Dev nD) (o : Fin 28672) :
    (V m c main_v5 : FVec Ideal S3x28672 .f32) (ix2 (1 : Fin 3) o)
      = (m ((c : Thread nD τ).loc main_arg3) : FVec Ideal S28672x1 .f32) (ix2 o (0 : Fin 1)) := by
  rw [V_params_eq m c, stack3_apply1]
  exact row_of_col_apply _ o

/-- The bias in row 2: at (2, o) the argument `b` at o. -/
theorem V_params2 (c : Dev nD) (o : Fin 28672) :
    (V m c main_v5 : FVec Ideal S3x28672 .f32) (ix2 (2 : Fin 3) o)
      = (m ((c : Thread nD τ).loc main_arg4) : FVec Ideal S28672 .f32) (ix1 o) := by
  rw [V_params_eq m c, stack3_apply2]
  exact row_of_vec_apply _ o

end Cert.KernelIdeal.PrefixValue

end
-- ==== Proof.IdealBlocks.lean ====
/-
  Each input window's block at a grid point, read at an index, in terms of the five arguments.

  The grid is 7 × 4 and point t has coordinates (n, k) = (t / 4, t % 4). The packed weights are staged in
  [256, 4096] blocks at block index (k, n), so the block's element (p, o) is the argument's element
  (256 k + p, 4096 n + o). The nibble-plane array [8, 16, 1024] is staged whole, and the body reads from it the
  [1, 16, 256] slab at (j, 0, 256 k): its element (0, r, p) is plane j, row r, packed row 256 k + p, which the host
  operations before the call made x[r, 8 (256 k + p) + j]. The three per-channel rows are staged in [3, 4096] blocks
  at block index (0, n): row 0, 1, 2 at lane o is the scale, the zero point, the bias of channel 4096 n + o. The row
  sums are staged whole.
-/
import proofs.«429149_j18373870092919_3_alg».proof.Proof.IdealFrame
import proofs.«429149_j18373870092919_3_alg».proof.Proof.PrefixValue
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Fr
open Idealize.ShloMosaic Idealize.ShloMosaic.TcCoe Idealize.SL.Sem
open Idealize.ShloMosaic.ValueIdx

variable (m : (ℓ : Loc nD τ sig) → Buf (Elt Ideal) ℓ)

/-! ## The index maps over the grid -/

/-- The weights' block index at point t is (t % 4, t / 4). -/
theorem index_q : ∀ t : Fin cfg0.N, win0_1.index t 0 = t.val % 4 ∧ win0_1.index t 1 = t.val / 4 :=
  (by decide +kernel : ∀ t : Fin grid0.N, win0_1.index t 0 = t.val % 4 ∧ win0_1.index t 1 = t.val / 4)

/-- The nibble-plane array is staged whole: its block index is (0, 0, 0) at every point. -/
theorem index_x : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)

/-- The per-channel rows' block index at point t is (0, t / 4). -/
theorem index_par : ∀ t : Fin cfg0.N, win0_2.index t 0 = 0 ∧ win0_2.index t 1 = t.val / 4 :=
  (by decide +kernel : ∀ t : Fin grid0.N, win0_2.index t 0 = 0 ∧ win0_2.index t 1 = t.val / 4)

/-- The row sums are staged whole. -/
theorem index_sumx : ∀ t : Fin cfg0.N, win0_3.index t 0 = 0 ∧ win0_3.index t 1 = 0 :=
  (by decide +kernel : ∀ t : Fin grid0.N, win0_3.index t 0 = 0 ∧ win0_3.index t 1 = 0)

/-- The eight slab offsets at point t: plane j, row 0, packed row 256 (t % 4). -/
theorem off1_eq : ∀ t : Fin cfg0.N, k0_off1 (grid0.coords t) = ![0, 0, 256 * (t.val % 4)] :=
  (by decide +kernel : ∀ t : Fin grid0.N, k0_off1 (grid0.coords t) = ![0, 0, 256 * (t.val % 4)])
theorem off2_eq : ∀ t : Fin cfg0.N, k0_off2 (grid0.coords t) = ![1, 0, 256 * (t.val % 4)] :=
  (by decide +kernel : ∀ t : Fin grid0.N, k0_off2 (grid0.coords t) = ![1, 0, 256 * (t.val % 4)])
theorem off3_eq : ∀ t : Fin cfg0.N, k0_off3 (grid0.coords t) = ![2, 0, 256 * (t.val % 4)] :=
  (by decide +kernel : ∀ t : Fin grid0.N, k0_off3 (grid0.coords t) = ![2, 0, 256 * (t.val % 4)])
theorem off4_eq : ∀ t : Fin cfg0.N, k0_off4 (grid0.coords t) = ![3, 0, 256 * (t.val % 4)] :=
  (by decide +kernel : ∀ t : Fin grid0.N, k0_off4 (grid0.coords t) = ![3, 0, 256 * (t.val % 4)])
theorem off5_eq : ∀ t : Fin cfg0.N, k0_off5 (grid0.coords t) = ![4, 0, 256 * (t.val % 4)] :=
  (by decide +kernel : ∀ t : Fin grid0.N, k0_off5 (grid0.coords t) = ![4, 0, 256 * (t.val % 4)])
theorem off6_eq : ∀ t : Fin cfg0.N, k0_off6 (grid0.coords t) = ![5, 0, 256 * (t.val % 4)] :=
  (by decide +kernel : ∀ t : Fin grid0.N, k0_off6 (grid0.coords t) = ![5, 0, 256 * (t.val % 4)])
theorem off7_eq : ∀ t : Fin cfg0.N, k0_off7 (grid0.coords t) = ![6, 0, 256 * (t.val % 4)] :=
  (by decide +kernel : ∀ t : Fin grid0.N, k0_off7 (grid0.coords t) = ![6, 0, 256 * (t.val % 4)])
theorem off8_eq : ∀ t : Fin cfg0.N, k0_off8 (grid0.coords t) = ![7, 0, 256 * (t.val % 4)] :=
  (by decide +kernel : ∀ t : Fin grid0.N, k0_off8 (grid0.coords t) = ![7, 0, 256 * (t.val % 4)])

/-- The packed-weight block at point t, at (p, o): the argument at (256 (t % 4) + p, 4096 (t / 4) + o). -/
theorem blk_q (c : Dev nD) (t : Fin cfg0.N) (p : Fin 256) (o : Fin 4096) :
    (iblk m c 1 t : Vec Ideal S256x4096 .i32) (ix2 p o)
      = (m ((c : Thread nD τ).loc main_arg1) : IVec S1024x28672 32)
          (ix2 (⟨256 * (t.val % 4) + p.val, by omega⟩ : Fin 1024)
            (⟨4096 * (t.val / 4) + o.val, by have := t.isLt; have : cfg0.N = 28 := N_0; omega⟩ : Fin 28672)) := by
  have hi := index_q t
  unfold iblk
  rw [View.read_apply]
  show V m c main_arg1 (((cfg0.win 1).blk t).view.emb (ix2 p o)) = _
  rw [V_main_arg1 m c]
  congr 1
  funext a
  apply Fin.ext
  match a with
  | ⟨0, _⟩ => show win0_1.index t 0 * 256 + 1 * p.val = 256 * (t.val % 4) + p.val; rw [hi.1]; omega
  | ⟨1, _⟩ => show win0_1.index t 1 * 4096 + 1 * o.val = 4096 * (t.val / 4) + o.val; rw [hi.2]; omega

/-! ## The nibble planes -/

/-- Every point's block of the nibble-plane array, at (j, r, q): the argument x at (r, 8 q + j). -/
theorem blk_plane_apply (c : Dev nD) (t : Fin cfg0.N) (j : Fin 8) (r : Fin 16) (q : Fin 1024) :
    (iblk m c 0 t : Vec Ideal S8x16x1024 .f32) (ix3 j r q)
      = (m ((c : Thread nD τ).loc main_arg0) : FVec Ideal S16x8192 .f32) (ix2 r (⟨8 * q.val + j.val, by omega⟩ : Fin 8192)) := by
  have hi := index_x t
  refine Eq.trans ?_ (PrefixValue.V_xperm m c j r q)
  unfold iblk
  rw [View.read_apply]
  show V m c main_v7 (((cfg0.win 0).blk t).view.emb (ix3 j r q)) = V m c main_v7 (ix3 j r q)
  congr 1
  funext a
  apply Fin.ext
  match a with
  | ⟨0, _⟩ => show win0_0.index t 0 * 8 + 1 * j.val = j.val; rw [hi.1]; omega
  | ⟨1, _⟩ => show win0_0.index t 1 * 16 + 1 * r.val = r.val; rw [hi.2.1]; omega
  | ⟨2, _⟩ => show win0_0.index t 2 * 1024 + 1 * q.val = q.val; rw [hi.2.2]; omega

/-- The [1, 16, 256] slab the body loads at offsets (j, 0, 256 (t % 4)), at (0, r, p): x at (r, 8 (256 (t % 4) + p) + j). -/
theorem blk_x (c : Dev nD) (t : Fin cfg0.N) (off : Fin 3 → Nat) (j : Fin 8) (hoff : off = ![j.val, 0, 256 * (t.val % 4)])
    (inb : ∀ a, off a + S1x16x256.size a ≤ S8x16x1024.size a) (r : Fin 16) (p : Fin 256) :
    (View.ld (iblk m c 0 t : Vec Ideal S8x16x1024 .f32) (Rect.unit (s := S8x16x1024) off S1x16x256.size inb)) (ix3 (0 : Fin 1) r p)
      = (m ((c : Thread nD τ).loc main_arg0) : FVec Ideal S16x8192 .f32)
          (ix2 r (⟨8 * (256 * (t.val % 4) + p.val) + j.val, by omega⟩ : Fin 8192)) := by
  subst hoff
  have e : (Rect.unit (s := S8x16x1024) ![j.val, 0, 256 * (t.val % 4)] S1x16x256.size inb).idx (ix3 (0 : Fin 1) r p)
      = ix3 j r (⟨256 * (t.val % 4) + p.val, by omega⟩ : Fin 1024) := by
    funext a
    apply Fin.ext
    match a with
    | ⟨0, _⟩ => show j.val + 1 * 0 = j.val; omega
    | ⟨1, _⟩ => show 0 + 1 * r.val = r.val; omega
    | ⟨2, _⟩ => show 256 * (t.val % 4) + 1 * p.val = 256 * (t.val % 4) + p.val; omega
  show (iblk m c 0 t : Vec Ideal S8x16x1024 .f32)
      ((Rect.unit (s := S8x16x1024) ![j.val, 0, 256 * (t.val % 4)] S1x16x256.size inb).idx (ix3 (0 : Fin 1) r p)) = _
  rw [e]
  exact blk_plane_apply m c t j r _

theorem blk_x1 (c : Dev nD) (t : Fin cfg0.N) (r : Fin 16) (p : Fin 256) :
    (View.ld (iblk m c 0 t : Vec Ideal S8x16x1024 .f32) (Rect.unit (s := S8x16x1024) (k0_off1 (grid0.coords t)) S1x16x256.size (Facts₀.k0_off1_inb (grid0.coords t)))) (ix3 (0 : Fin 1) r p)
      = (m ((c : Thread nD τ).loc main_arg0) : FVec Ideal S16x8192 .f32)
          (ix2 r (⟨8 * (256 * (t.val % 4) + p.val) + 0, by omega⟩ : Fin 8192)) :=
  blk_x m c t _ 0 (off1_eq t) _ r p

theorem blk_x2 (c : Dev nD) (t : Fin cfg0.N) (r : Fin 16) (p : Fin 256) :
    (View.ld (iblk m c 0 t : Vec Ideal S8x16x1024 .f32) (Rect.unit (s := S8x16x1024) (k0_off2 (grid0.coords t)) S1x16x256.size (Facts₀.k0_off2_inb (grid0.coords t)))) (ix3 (0 : Fin 1) r p)
      = (m ((c : Thread nD τ).loc main_arg0) : FVec Ideal S16x8192 .f32)
          (ix2 r (⟨8 * (256 * (t.val % 4) + p.val) + 1, by omega⟩ : Fin 8192)) :=
  blk_x m c t _ 1 (off2_eq t) _ r p

theorem blk_x3 (c : Dev nD) (t : Fin cfg0.N) (r : Fin 16) (p : Fin 256) :
    (View.ld (iblk m c 0 t : Vec Ideal S8x16x1024 .f32) (Rect.unit (s := S8x16x1024) (k0_off3 (grid0.coords t)) S1x16x256.size (Facts₀.k0_off3_inb (grid0.coords t)))) (ix3 (0 : Fin 1) r p)
      = (m ((c : Thread nD τ).loc main_arg0) : FVec Ideal S16x8192 .f32)
          (ix2 r (⟨8 * (256 * (t.val % 4) + p.val) + 2, by omega⟩ : Fin 8192)) :=
  blk_x m c t _ 2 (off3_eq t) _ r p

theorem blk_x4 (c : Dev nD) (t : Fin cfg0.N) (r : Fin 16) (p : Fin 256) :
    (View.ld (iblk m c 0 t : Vec Ideal S8x16x1024 .f32) (Rect.unit (s := S8x16x1024) (k0_off4 (grid0.coords t)) S1x16x256.size (Facts₀.k0_off4_inb (grid0.coords t)))) (ix3 (0 : Fin 1) r p)
      = (m ((c : Thread nD τ).loc main_arg0) : FVec Ideal S16x8192 .f32)
          (ix2 r (⟨8 * (256 * (t.val % 4) + p.val) + 3, by omega⟩ : Fin 8192)) :=
  blk_x m c t _ 3 (off4_eq t) _ r p

theorem blk_x5 (c : Dev nD) (t : Fin cfg0.N) (r : Fin 16) (p : Fin 256) :
    (View.ld (iblk m c 0 t : Vec Ideal S8x16x1024 .f32) (Rect.unit (s := S8x16x1024) (k0_off5 (grid0.coords t)) S1x16x256.size (Facts₀.k0_off5_inb (grid0.coords t)))) (ix3 (0 : Fin 1) r p)
      = (m ((c : Thread nD τ).loc main_arg0) : FVec Ideal S16x8192 .f32)
          (ix2 r (⟨8 * (256 * (t.val % 4) + p.val) + 4, by omega⟩ : Fin 8192)) :=
  blk_x m c t _ 4 (off5_eq t) _ r p

theorem blk_x6 (c : Dev nD) (t : Fin cfg0.N) (r : Fin 16) (p : Fin 256) :
    (View.ld (iblk m c 0 t : Vec Ideal S8x16x1024 .f32) (Rect.unit (s := S8x16x1024) (k0_off6 (grid0.coords t)) S1x16x256.size (Facts₀.k0_off6_inb (grid0.coords t)))) (ix3 (0 : Fin 1) r p)
      = (m ((c : Thread nD τ).loc main_arg0) : FVec Ideal S16x8192 .f32)
          (ix2 r (⟨8 * (256 * (t.val % 4) + p.val) + 5, by omega⟩ : Fin 8192)) :=
  blk_x m c t _ 5 (off6_eq t) _ r p

theorem blk_x7 (c : Dev nD) (t : Fin cfg0.N) (r : Fin 16) (p : Fin 256) :
    (View.ld (iblk m c 0 t : Vec Ideal S8x16x1024 .f32) (Rect.unit (s := S8x16x1024) (k0_off7 (grid0.coords t)) S1x16x256.size (Facts₀.k0_off7_inb (grid0.coords t)))) (ix3 (0 : Fin 1) r p)
      = (m ((c : Thread nD τ).loc main_arg0) : FVec Ideal S16x8192 .f32)
          (ix2 r (⟨8 * (256 * (t.val % 4) + p.val) + 6, by omega⟩ : Fin 8192)) :=
  blk_x m c t _ 6 (off7_eq t) _ r p

theorem blk_x8 (c : Dev nD) (t : Fin cfg0.N) (r : Fin 16) (p : Fin 256) :
    (View.ld (iblk m c 0 t : Vec Ideal S8x16x1024 .f32) (Rect.unit (s := S8x16x1024) (k0_off8 (grid0.coords t)) S1x16x256.size (Facts₀.k0_off8_inb (grid0.coords t)))) (ix3 (0 : Fin 1) r p)
      = (m ((c : Thread nD τ).loc main_arg0) : FVec Ideal S16x8192 .f32)
          (ix2 r (⟨8 * (256 * (t.val % 4) + p.val) + 7, by omega⟩ : Fin 8192)) :=
  blk_x m c t _ 7 (off8_eq t) _ r p

/-! ## The per-channel rows and the row sums -/

/-- The per-channel block at point t, at (i, o): the stacked array at (i, 4096 (t / 4) + o). -/
theorem blk_par_apply (c : Dev nD) (t : Fin cfg0.N) (i : Fin 3) (o : Fin 4096) :
    (iblk m c 2 t : Vec Ideal S3x4096 .f32) (ix2 i o)
      = (PrefixValue.V m c main_v5 : FVec Ideal S3x28672 .f32)
          (ix2 i (⟨4096 * (t.val / 4) + o.val, by have := t.isLt; have : cfg0.N = 28 := N_0; omega⟩ : Fin 28672)) := by
  have hi := index_par t
  unfold iblk
  rw [View.read_apply]
  show V m c main_v5 (((cfg0.win 2).blk t).view.emb (ix2 i o)) = V m c main_v5 _
  congr 1
  funext a
  apply Fin.ext
  match a with
  | ⟨0, _⟩ => show win0_2.index t 0 * 3 + 1 * i.val = i.val; rw [hi.1]; omega
  | ⟨1, _⟩ => show win0_2.index t 1 * 4096 + 1 * o.val = 4096 * (t.val / 4) + o.val; rw [hi.2]; omega

/-- Row i of the block, loaded as a [1, 4096] vector, at (0, o): the block at (i, o). -/
theorem ld_row (X : Vec Ideal S3x4096 .f32) (off : Fin 2 → Nat) (i : Fin 3) (hoff : off = ![i.val, 0])
    (inb : ∀ a, off a + S1x4096.size a ≤ S3x4096.size a) (o : Fin 4096) :
    (View.ld X (Rect.unit (s := S3x4096) off S1x4096.size inb)) (ix2 (0 : Fin 1) o) = X (ix2 i o) := by
  subst hoff
  show X ((Rect.unit (s := S3x4096) ![i.val, 0] S1x4096.size inb).idx (ix2 (0 : Fin 1) o)) = _
  congr 1
  funext a
  apply Fin.ext
  match a with
  | ⟨0, _⟩ => show i.val + 1 * 0 = i.val; omega
  | ⟨1, _⟩ => show 0 + 1 * o.val = o.val; omega

/-- The scale row at point t, at lane o: the scale of channel 4096 (t / 4) + o. -/
theorem blk_scale (c : Dev nD) (t : Fin cfg0.N) (o : Fin 4096) :
    (View.ld (iblk m c 2 t : Vec Ideal S3x4096 .f32) (Rect.unit (s := S3x4096) ![0, 0] S1x4096.size Facts₀.inb_S3x4096_S1x4096_0_0)) (ix2 (0 : Fin 1) o)
      = (m ((c : Thread nD τ).loc main_arg2) : FVec Ideal S28672x1 .f32)
          (ix2 (⟨4096 * (t.val / 4) + o.val, by have := t.isLt; have : cfg0.N = 28 := N_0; omega⟩ : Fin 28672) (0 : Fin 1)) := by
  refine (ld_row _ _ 0 rfl _ o).trans ?_
  rw [blk_par_apply]
  exact PrefixValue.V_params0 m c _

/-- The zero-point row at point t, at lane o. -/
theorem blk_zero (c : Dev nD) (t : Fin cfg0.N) (o : Fin 4096) :
    (View.ld (iblk m c 2 t : Vec Ideal S3x4096 .f32) (Rect.unit (s := S3x4096) ![1, 0] S1x4096.size Facts₀.inb_S3x4096_S1x4096_1_0)) (ix2 (0 : Fin 1) o)
      = (m ((c : Thread nD τ).loc main_arg3) : FVec Ideal S28672x1 .f32)
          (ix2 (⟨4096 * (t.val / 4) + o.val, by have := t.isLt; have : cfg0.N = 28 := N_0; omega⟩ : Fin 28672) (0 : Fin 1)) := by
  refine (ld_row _ _ 1 rfl _ o).trans ?_
  rw [blk_par_apply]
  exact PrefixValue.V_params1 m c _

/-- The bias row at point t, at lane o. -/
theorem blk_bias (c : Dev nD) (t : Fin cfg0.N) (o : Fin 4096) :
    (View.ld (iblk m c 2 t : Vec Ideal S3x4096 .f32) (Rect.unit (s := S3x4096) ![2, 0] S1x4096.size Facts₀.inb_S3x4096_S1x4096_2_0)) (ix2 (0 : Fin 1) o)
      = (m ((c : Thread nD τ).loc main_arg4) : FVec Ideal S28672 .f32)
          (ix1 (⟨4096 * (t.val / 4) + o.val, by have := t.isLt; have : cfg0.N = 28 := N_0; omega⟩ : Fin 28672)) := by
  refine (ld_row _ _ 2 rfl _ o).trans ?_
  rw [blk_par_apply]
  exact PrefixValue.V_params2 m c _

/-- The row sums' block at every point, at (r, 0): zero plus the sum of row r of x. -/
theorem blk_sumx (c : Dev nD) (t : Fin cfg0.N) (r : Fin 16) :
    (iblk m c 3 t : Vec Ideal S16x1 .f32) (ix2 r (0 : Fin 1))
      = 0 + @Finset.sum (Fin 8192) EReal _ Finset.univ
          (fun k => (m ((c : Thread nD τ).loc main_arg0) : FVec Ideal S16x8192 .f32) (ix2 r k)) := by
  have hi := index_sumx t
  refine Eq.trans ?_ (PrefixValue.V_sumx m c r)
  unfold iblk
  rw [View.read_apply]
  show V m c main_v1 (((cfg0.win 3).blk t).view.emb (ix2 r (0 : Fin 1))) = V m c main_v1 (ix2 r (0 : Fin 1))
  congr 1
  funext a
  apply Fin.ext
  match a with
  | ⟨0, _⟩ => show win0_3.index t 0 * 16 + 1 * r.val = r.val; rw [hi.1]; omega
  | ⟨1, _⟩ => show win0_3.index t 1 * 1 + 1 * 0 = 0; rw [hi.2]

end Cert.KernelIdeal.Blocks

end
-- ==== Proof.SumBlocks.lean ====
/-
  A regrouping of a finite double sum: the 1024 packed rows cut into four blocks of 256.

  Row `q < 1024` is `256·k + p` for exactly one block `k < 4` and one row in the block `p < 256`, so summing over blocks,
  then nibbles, then rows in the block visits every (row, nibble) pair once. Only commutativity and associativity of the
  addition are used.
-/
import Mathlib.Data.Fintype.BigOperators
import Mathlib.Algebra.BigOperators.Group.Finset.Sigma

namespace Cert.SumBlocks

/-- A row `q < 1024` is `256·k + p` for exactly one block `k < 4` and row in the block `p < 256`. -/
def blockEquiv : Fin 4 × Fin 256 ≃ Fin 1024 where
  toFun kp := ⟨256 * kp.1.val + kp.2.val, by omega⟩
  invFun q := (⟨q.val / 256, by omega⟩, ⟨q.val % 256, by omega⟩)
  left_inv := by
    rintro ⟨k, p⟩
    refine Prod.ext (Fin.ext ?_) (Fin.ext ?_)
    · show (256 * k.val + p.val) / 256 = k.val
      omega
    · show (256 * k.val + p.val) % 256 = p.val
      omega
  right_inv := by
    intro q
    refine Fin.ext ?_
    show 256 * (q.val / 256) + q.val % 256 = q.val
    omega

/-- The sum over (block, nibble, row in the block) is the sum over (row, nibble): inside a block the two inner sums are
    exchanged, and the pairs (block, row in the block) are the rows. -/
theorem sum_blocks {M : Type*} [AddCommMonoid M] (f : Fin 1024 → Fin 8 → M) :
    ∑ k : Fin 4, ∑ j : Fin 8, ∑ p : Fin 256, f (⟨256 * k.val + p.val, by omega⟩ : Fin 1024) j = ∑ q : Fin 1024, ∑ j : Fin 8, f q j := by
  rw [← Equiv.sum_comp blockEquiv (fun q => ∑ j : Fin 8, f q j), Fintype.sum_prod_type]
  refine Finset.sum_congr rfl fun k _ => ?_
  rw [Finset.sum_comm]
  rfl

end Cert.SumBlocks
-- ==== Proof.IdealValue.lean ====
/-
  The idealized kernel's result array is the specification, at the ideal instance.

  A grid point (tile `n`, row block `k`) adds to the accumulator, at row `r` and channel `o` of the tile, the products
  `x[r, 8q + j] · nib_j(qw[q, 4096n + o])` over the nibbles `j` and the 256 packed rows `q = 256k + p` of its block; so at
  the tile's last point the accumulator is `0 +` the four blocks' sums, which is the sum over all 1024 packed rows
  (the blocks partition them; addition of extended reals is commutative and associative), and the output block
  stored there is the specification's value at `(r, 4096n + o)`. The seven tiles' blocks, written back at the
  points ≡ 3 (mod 4), partition the [16, 28672] result array.
-/
import proofs.«429149_j18373870092919_3_alg».proof.Proof.IdealAccum
import proofs.«429149_j18373870092919_3_alg».proof.Proof.IdealBlocks
import proofs.«429149_j18373870092919_3_alg».proof.Proof.Spec
import proofs.«429149_j18373870092919_3_alg».proof.Proof.SumBlocks
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The five arguments at their literal types. -/
abbrev A0 (c : Dev nD) : FVec Ideal S16x8192 .f32 := m ((c : Thread nD τ).loc main_arg0)
abbrev A1 (c : Dev nD) : IVec S1024x28672 32 := m ((c : Thread nD τ).loc main_arg1)
abbrev A2 (c : Dev nD) : FVec Ideal S28672x1 .f32 := m ((c : Thread nD τ).loc main_arg2)
abbrev A3 (c : Dev nD) : FVec Ideal S28672x1 .f32 := m ((c : Thread nD τ).loc main_arg3)
abbrev A4 (c : Dev nD) : FVec Ideal S28672 .f32 := m ((c : Thread nD τ).loc main_arg4)

/-- The specification at the arguments. -/
abbrev Gm (c : Dev nD) : FVec Ideal S16x28672 .f32 := Cert.Spec.G (A0 m c) (A1 m c) (A2 m c) (A3 m c) (A4 m c)

/-- Packed row `q`, nibble `j`'s product at row `r`, channel `o'`. -/
def prod (c : Dev nD) (r : Fin 16) (o' : Fin 28672) (q : Fin 1024) (j : Fin 8) : EReal :=
  A0 m c (ix2 r (⟨8 * q.val + j.val, by omega⟩ : Fin 8192)) * Cert.Spec.nib (A1 m c (ix2 q o')) j

theorem N28 : cfg0.N = 28 := N_0

/-- Channel `o` of tile `n`. -/
abbrev chan (n : ℕ) (hn : n < 7) (o : Fin 4096) : Fin 28672 := ⟨4096 * n + o.val, by omega⟩

theorem tdiv (t : Fin cfg0.N) : t.val / 4 < 7 := by have := t.isLt; have := N28; omega

/-- A point's term over the arguments: its block of 256 packed rows, all eight nibbles. -/
theorem termB_eq (c : Dev nD) (t : Fin cfg0.N) (r : Fin 16) (o : Fin 4096) :
    termB m c t r o = ∑ j : Fin 8, ∑ p : Fin 256, prod m c r (chan (t.val / 4) (tdiv t) o) (⟨256 * (t.val % 4) + p.val, by omega⟩ : Fin 1024) j := by
  unfold termB
  refine Finset.sum_congr rfl fun j _ => Finset.sum_congr rfl fun p _ => ?_
  unfold prod
  rw [Blocks.blk_q m c t p o]
  refine congrArg (· * _) ?_
  fin_cases j
  · exact Blocks.blk_x1 m c t r p
  · exact Blocks.blk_x2 m c t r p
  · exact Blocks.blk_x3 m c t r p
  · exact Blocks.blk_x4 m c t r p
  · exact Blocks.blk_x5 m c t r p
  · exact Blocks.blk_x6 m c t r p
  · exact Blocks.blk_x7 m c t r p
  · exact Blocks.blk_x8 m c t r p

/-- The term of the `k`-th point of the tile that starts at position `q`. -/
theorem term_tile (c : Dev nD) (q k : ℕ) (hq : q % 4 = 0) (hk : k < 4) (h : q + k < cfg0.N) (hq7 : q / 4 < 7) (r : Fin 16) (o : Fin 4096) :
    termB m c ⟨q + k, h⟩ r o = ∑ j : Fin 8, ∑ p : Fin 256, prod m c r (chan (q / 4) hq7 o) (⟨256 * k + p.val, by omega⟩ : Fin 1024) j := by
  rw [termB_eq]
  refine Finset.sum_congr rfl fun j _ => Finset.sum_congr rfl fun p _ => ?_
  have e1 : (q + k) % 4 = k := by omega
  have e2 : (q + k) / 4 = q / 4 := by omega
  have ea : chan ((⟨q + k, h⟩ : Fin cfg0.N).val / 4) (tdiv ⟨q + k, h⟩) o = chan (q / 4) hq7 o :=
    Fin.ext (by show 4096 * ((q + k) / 4) + o.val = 4096 * (q / 4) + o.val; rw [e2])
  have eb : (⟨256 * ((⟨q + k, h⟩ : Fin cfg0.N).val % 4) + p.val, by omega⟩ : Fin 1024) = ⟨256 * k + p.val, by omega⟩ :=
    Fin.ext (by show 256 * ((q + k) % 4) + p.val = 256 * k + p.val; rw [e1])
  rw [ea, eb]

/-- At a tile's last point the accumulator is the sum over the tile's four blocks. -/
theorem acc_tile (c : Dev nD) (q : ℕ) (hq : q % 4 = 0) (h : q + 3 < cfg0.N) (hq7 : q / 4 < 7) (r : Fin 16) (o : Fin 4096) :
    accAt m c (q + 3) h (ix2 r o)
      = ∑ k : Fin 4, ∑ j : Fin 8, ∑ p : Fin 256, prod m c r (chan (q / 4) hq7 o) (⟨256 * k.val + p.val, by omega⟩ : Fin 1024) j := by
  have h2 : q + 2 < cfg0.N := by omega
  have h1 : q + 1 < cfg0.N := by omega
  have h0 : q < cfg0.N := by omega
  unfold accAt
  rw [acc_next m c (q + 2) h (by omega), acc_next m c (q + 1) h2 (by omega), acc_next m c q h1 (by omega), acc_first m c q h0 hq]
  rw [term_tile m c q 3 hq (by omega) h hq7, term_tile m c q 2 hq (by omega) h2 hq7, term_tile m c q 1 hq (by omega) h1 hq7,
    show termB m c ⟨q, h0⟩ r o = termB m c ⟨q + 0, h0⟩ r o from rfl, term_tile m c q 0 hq (by omega) h0 hq7]
  rw [Fin.sum_univ_four, zero_add]
  rfl

/-- So the output block stored at a tile's last point is the specification's block. -/
theorem out_tile (c : Dev nD) (q : ℕ) (hq : q % 4 = 0) (h : q + 3 < cfg0.N) (hq7 : q / 4 < 7) (r : Fin 16) (o : Fin 4096) :
    (outsAt0 m c (q + 3) h).1 (ix2 r o) = Gm m c (ix2 r (chan (q / 4) hq7 o)) := by
  rw [out_last m c (q + 2) h (by omega) r o, acc_tile m c q hq h hq7 r o]
  unfold scaleRow zeroRow biasRow blkP blkS
  rw [Blocks.blk_scale m c ⟨q + 3, h⟩ o, Blocks.blk_zero m c ⟨q + 3, h⟩ o, Blocks.blk_bias m c ⟨q + 3, h⟩ o, Blocks.blk_sumx m c ⟨q + 3, h⟩ r]
  have e2 : (q + 3) / 4 = q / 4 := by omega
  have ec : (⟨4096 * ((⟨q + 3, h⟩ : Fin cfg0.N).val / 4) + o.val, by have := tdiv (⟨q + 3, h⟩ : Fin cfg0.N); omega⟩ : Fin 28672) = chan (q / 4) hq7 o :=
    Fin.ext (by show 4096 * ((q + 3) / 4) + o.val = 4096 * (q / 4) + o.val; rw [e2])
  rw [ec]
  rw [Cert.SumBlocks.sum_blocks (prod m c r (chan (q / 4) hq7 o))]
  rfl

/-! ## From the blocks to the array -/

/-- The output window's block index at a point: (0, the tile). -/
theorem idx4 : ∀ t : Fin cfg0.N, win0_4.index t 0 = 0 ∧ win0_4.index t 1 = t.val / 4 :=
  (by decide +kernel : ∀ t : Fin grid0.N, win0_4.index t 0 = 0 ∧ win0_4.index t 1 = t.val / 4)

/-- What a write-back writes is the specification's block there. -/
theorem flushed_eq (c : Dev nD) (t : Fin cfg0.N) (hf : (cfg0.win 4).flush t = true) :
    (dats m 0 c).flushed 4 t = ((cfg0.win 4).blk t).view.read (Elt Ideal) (Gm m c) := by
  have h3 : t.val % 4 = 3 := (flush0_4 t).mp hf
  show (cfg0.win 4).cut (grid0.coords t) ((dats m 0 c).after 4 t) = _
  rw [after0_4]
  obtain ⟨tv, ht⟩ := t
  obtain ⟨q, rfl⟩ : ∃ q, tv = q + 3 := ⟨tv - 3, by dsimp only at h3; omega⟩
  have hq : q % 4 = 0 := by dsimp only at h3; omega
  have hq7 : q / 4 < 7 := by have := N28; omega
  funext y
  obtain ⟨r, o, rfl⟩ : ∃ (r : Fin 16) (o : Fin 4096), y = ix2 r o := ⟨y 0, y 1, eq_ix2 y⟩
  rw [View.read_apply]
  have hemb : ((cfg0.win 4).blk ⟨q + 3, ht⟩).view.emb (ix2 r o) = ix2 r (chan (q / 4) hq7 o) := by
    funext a
    apply Fin.ext
    have hi := idx4 ⟨q + 3, ht⟩
    match a with
    | ⟨0, _⟩ => show win0_4.index ⟨q + 3, ht⟩ 0 * 16 + 1 * r.val = r.val; rw [hi.1]; omega
    | ⟨1, _⟩ => show win0_4.index ⟨q + 3, ht⟩ 1 * 4096 + 1 * o.val = 4096 * (q / 4) + o.val; rw [hi.2]; dsimp only; omega
  rw [hemb]
  exact out_tile m c q hq ht hq7 r o

/-- The output window's blocks are never cut: every block is 16 × 4096. -/
theorem xs4 : ∀ t : Fin cfg0.N, win0_4.xsize (grid0.coords t) 0 = 16 ∧ win0_4.xsize (grid0.coords t) 1 = 4096 :=
  (by decide +kernel : ∀ t : Fin grid0.N, win0_4.xsize (grid0.coords t) 0 = 16 ∧ win0_4.xsize (grid0.coords t) 1 = 4096)

/-- Every index of the result array is in the block its tile's last point writes back. -/
theorem covered (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0 : Nat) < 16 := (i 0).isLt
  have h1 : (i 1 : Nat) < 28672 := (i 1).isLt
  have hN : cfg0.N = 28 := N_0
  obtain ⟨t, ht⟩ : ∃ t : Fin cfg0.N, t.val = 4 * ((i 1 : Nat) / 4096) + 3 :=
    ⟨⟨4 * ((i 1 : Nat) / 4096) + 3, by rw [hN]; omega⟩, rfl⟩
  refine ⟨t, (flush0_4 t).mpr (by omega), ?_⟩
  have hi := idx4 t
  have hx := xs4 t
  show i ∈ ((View.whole main_v8).slice (win0_4.rect t)).set
  rw [View.set_slice_whole, Rect.mem_set_unit]
  intro a
  match a with
  | ⟨0, _⟩ =>
    show win0_4.index t 0 * win0_4.size 0 ≤ (i 0 : Nat) ∧ (i 0 : Nat) < win0_4.index t 0 * win0_4.size 0 + win0_4.xsize (grid0.coords t) 0
    rw [hi.1, hx.1, show win0_4.size 0 = 16 from rfl]; omega
  | ⟨1, _⟩ =>
    show win0_4.index t 1 * win0_4.size 1 ≤ (i 1 : Nat) ∧ (i 1 : Nat) < win0_4.index t 1 * win0_4.size 1 + win0_4.xsize (grid0.coords t) 1
    rw [hi.2, hx.2, show win0_4.size 1 = 4096 from rfl]; omega

/-- So the result array ends holding the specification. -/
theorem final_out (c : Dev nD) : (dats m 0 c).arrAt 4 cfg0.N = Gm m c :=
  (dats m 0 c).arrAt_eq_of_cover 4 (Gm m c) (flushed_eq m c) (covered c)

/-- The run, read: the result array at the specification of the arguments, the arguments unchanged. -/
theorem run_G : θ_run defs (onTc (τ := τ) (main (F := Ideal))) ⟨m, fun _ => 0, ρ⟩ fun r => ∀ c : Dev nD,
      r.2.mem ((c.tc : Thread nD τ).loc main_v8) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 4).trans (final_out m c),
    ((h c).2 main_arg0 (Pipeline.mem_restRefs_of main_arg0 rfl (by decide))).trans (V_main_arg0 m c),
    ((h c).1 1).trans (((dats m 0 c).arrAt_in 1 rfl _).trans ((A_eq m c 1).trans (V_main_arg1 m c))),
    ((h c).2 main_arg2 (Pipeline.mem_restRefs_of main_arg2 rfl (by decide))).trans (V_main_arg2 m c),
    ((h c).2 main_arg3 (Pipeline.mem_restRefs_of main_arg3 rfl (by decide))).trans (V_main_arg3 m c),
    ((h c).2 main_arg4 (Pipeline.mem_restRefs_of main_arg4 rfl (by decide))).trans (V_main_arg4 m c)⟩)
    (run_main m ρ)

end Cert.KernelIdeal.Fr

end
-- ==== Proof.RefValue.lean ====
/- The reference's result read at an index: it is the specification's function of the argument arrays. -/
import proofs.«429149_j18373870092919_3_alg».proof.Proof.Gen.ReferenceIdeal.Read
import proofs.«429149_j18373870092919_3_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## The flat contraction index is (packed row, nibble) -/

/-- A flat index `k < 8192` is `8·p + j` for exactly one packed row `p < 1024` and nibble `j < 8`. -/
def splitEquiv : Fin 1024 × Fin 8 ≃ Fin 8192 where
  toFun pj := ⟨8 * pj.1.val + pj.2.val, by omega⟩
  invFun k := (⟨k.val / 8, by omega⟩, ⟨k.val % 8, by omega⟩)
  left_inv := by
    rintro ⟨p, j⟩
    refine Prod.ext (Fin.ext ?_) (Fin.ext ?_)
    · show (8 * p.val + j.val) / 8 = p.val
      omega
    · show (8 * p.val + j.val) % 8 = j.val
      omega
  right_inv := by
    intro k
    refine Fin.ext ?_
    show 8 * (k.val / 8) + k.val % 8 = k.val
    omega

/-- A sum over the flat index is the double sum over packed rows and nibbles: a regrouping, which needs only that
    addition is commutative and associative. -/
theorem sum_split {M : Type*} [AddCommMonoid M] (f : Fin 8192 → M) :
    ∑ k : Fin 8192, f k = ∑ p : Fin 1024, ∑ j : Fin 8, f ⟨8 * p.val + j.val, by omega⟩ := by
  rw [← Equiv.sum_comp splitEquiv f, Fintype.sum_prod_type]
  rfl

/-! ## The shift amounts and the nibble -/

/-- The shift amount of nibble `j`: the word `j` times the word 4 is the word `4·j`. -/
theorem shift_word (j : Fin 8) : IntOp.muli (BitVec.ofNat 32 j.val) 4#32 = BitVec.ofNat 32 (4 * j.val) := by
  revert j; decide

/-- It is below the width, so the shift is the arithmetic shift itself. -/
theorem shrsi_nib (w : BitVec 32) (j : Fin 8) :
    IntOp.shrsi .host w (BitVec.ofNat 32 (4 * j.val)) = w.sshiftRight' (BitVec.ofNat 32 (4 * j.val)) := by
  unfold IntOp.shrsi
  exact if_pos (by revert j; decide)

/-! ## The unpacked weight read at an index -/

/-- The reshape `[1024, 8, 28672] → [8192, 28672]` read at row `8·p + j`, channel `o`, reads `(p, j, o)`. -/
theorem idx_v10 (p : Fin 1024) (j : Fin 8) (o : Fin 28672) :
    idx_main_v10 (ix2 (⟨8 * p.val + j.val, by omega⟩ : Fin 8192) o) = ix3 p j o :=
  funext fun a => Fin.ext (by
    match a with
    | ⟨0, _⟩ => show ((8 * p.val + j.val) * 28672 + o.val) / 229376 = p.val; omega
    | ⟨1, _⟩ => show ((8 * p.val + j.val) * 28672 + o.val) / 28672 % 8 = j.val; omega
    | ⟨2, _⟩ => show ((8 * p.val + j.val) * 28672 + o.val) % 28672 = o.val; omega)

/-- The packed word broadcast along the nibble axis is read at `(p, o)`. -/
theorem idx_v3_v5 (p : Fin 1024) (j : Fin 8) (o : Fin 28672) :
    idx_main_v3 (idx_main_v5 (ix3 p j o)) = ix2 p o :=
  funext fun a => Fin.ext (by match a with | ⟨0, _⟩ => rfl | ⟨1, _⟩ => rfl)

/-- The shift amounts broadcast along rows and channels are read at `j`. -/
theorem idx_v4_v6 (p : Fin 1024) (j : Fin 8) (o : Fin 28672) :
    idx_main_v4 (idx_main_v6 (ix3 p j o)) = ix1 j :=
  funext fun a => Fin.ext (by match a with | ⟨0, _⟩ => rfl)

/-- The unpacked weight at flat row `8·p + j`, channel `o`, is nibble `j` of the packed word at `(p, o)`. -/
theorem weight_apply (qw : IVec S1024x28672 32) (p : Fin 1024) (j : Fin 8) (o : Fin 28672) :
    val_main_v11 (F := Ideal) qw (ix2 (⟨8 * p.val + j.val, by omega⟩ : Fin 8192) o) = Cert.Spec.nib (qw (ix2 p o)) j := by
  rw [val_main_v11_apply, val_main_v10_apply, idx_v10, val_main_v9_apply, val_main_v7_apply, val_main_v5_apply,
    val_main_v3_apply, idx_v3_v5, val_main_v6_apply, val_main_v4_apply, idx_v4_v6, val_main_v2_apply, val_main_v0_apply,
    val_main_v1_apply, val_main_c_apply, val_main_v8_apply, val_main_c_0_apply]
  show FloatOps.sitofp (F := Ideal) .f32 (IntOp.andi (IntOp.shrsi .host (qw (ix2 p o)) (IntOp.muli (BitVec.ofNat 32 j.val) 4#32)) 15#32) = _
  rw [shift_word, shrsi_nib]
  rfl

/-! ## The result read at an index -/

theorem lidx_v14 (r : Fin 16) (o : Fin 28672) (k : Fin 8192) : lidx_main_v14 (ix2 r o) k = ix2 r k :=
  funext fun a => Fin.ext (by match a with | ⟨0, _⟩ => rfl | ⟨1, _⟩ => rfl)

theorem ridx_v14 (r : Fin 16) (o : Fin 28672) (k : Fin 8192) : ridx_main_v14 (ix2 r o) k = ix2 k o :=
  funext fun a => Fin.ext (by match a with | ⟨0, _⟩ => rfl | ⟨1, _⟩ => rfl)

/-- The scale column, reshaped to a vector and broadcast along rows, is read at `(o, 0)`. -/
theorem idx_scale (r : Fin 16) (o : Fin 28672) :
    idx_main_v12 (idx_main_v15 (idx_main_v16 (ix2 r o))) = ix2 o (0 : Fin 1) :=
  funext fun a => Fin.ext (by match a with | ⟨0, _⟩ => exact Nat.div_one _ | ⟨1, _⟩ => rfl)

/-- The zero-point column likewise. -/
theorem idx_zero (r : Fin 16) (o : Fin 28672) :
    idx_main_v13 (idx_main_v20 (idx_main_v22 (ix2 r o))) = ix2 o (0 : Fin 1) :=
  funext fun a => Fin.ext (by match a with | ⟨0, _⟩ => exact Nat.div_one _ | ⟨1, _⟩ => rfl)

/-- The row sum kept as a column and broadcast along channels is read at row `r`. -/
theorem idx_rowsum (r : Fin 16) (o : Fin 28672) (k : Fin 8192) :
    idx_main_v18 (idx_main_v19 (idx_main_v21 (ix2 r o))) k = ix2 r k :=
  funext fun a => Fin.ext (by match a with | ⟨0, _⟩ => rfl | ⟨1, _⟩ => rfl)

/-- The bias broadcast along rows is read at channel `o`. -/
theorem idx_bias (r : Fin 16) (o : Fin 28672) : idx_main_v25 (idx_main_v26 (ix2 r o)) = ix1 o :=
  funext fun a => Fin.ext (by match a with | ⟨0, _⟩ => rfl)

/-- The contraction over the flat index is the specification's double sum over packed rows and nibbles. -/
theorem dot_apply (x : FVec Ideal S16x8192 .f32) (qw : IVec S1024x28672 32) (r : Fin 16) (o : Fin 28672) :
    ∑ k : Fin 8192, x (ix2 r k) * val_main_v11 (F := Ideal) qw (ix2 k o) = Cert.Spec.dotq x qw r o := by
  rw [sum_split]
  refine Finset.sum_congr rfl fun p _ => Finset.sum_congr rfl fun j _ => ?_
  rw [weight_apply]

/-- The reference's result is the specification's function of the argument arrays. -/
theorem result_eq (x : FVec Ideal S16x8192 .f32) (qw : IVec S1024x28672 32) (s z : FVec Ideal S28672x1 .f32)
    (b : FVec Ideal S28672 .f32) :
    val_main_v27 (F := Ideal) x qw s z b = Cert.Spec.G x qw s z b := by
  funext i
  obtain ⟨r, o, rfl⟩ : ∃ (r : Fin 16) (o : Fin 28672), i = ix2 r o := ⟨i 0, i 1, eq_ix2 i⟩
  rw [Cert.Spec.G_ix2, val_main_v27_apply, val_main_v24_apply, val_main_v17_apply, val_main_v14_apply, val_main_v16_apply,
    val_main_v15_apply, val_main_v12_apply, idx_scale, val_main_v23_apply, val_main_v21_apply, val_main_v19_apply,
    val_main_v18_apply, val_main_cst_apply, val_main_v22_apply, val_main_v20_apply, val_main_v13_apply, idx_zero,
    val_main_v26_apply, val_main_v25_apply, idx_bias]
  simp only [lidx_v14, ridx_v14, idx_rowsum]
  rw [dot_apply]
  show Cert.Spec.dotq x qw r o * s (ix2 o (0 : Fin 1))
      - (Ideal.ofBits .f32 0x00000000#32 + ∑ k : Fin 8192, x (ix2 r k)) * z (ix2 o (0 : Fin 1)) + b (ix1 o) = _
  rw [Ideal.ofBits_zero_f32]
  rfl

/-! ## The run -/

/-- Every weakly fair execution of the reference terminates with its result buffer at the specification's function of
    the argument buffers' launch contents, and the arguments unchanged. -/
theorem run_G (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v27) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c).1.trans ((val_main_v27_eq (F := Ideal) _ _ _ _ _).trans (result_eq _ _ _ _ _)), (h c).2⟩)
    (Cert.ReferenceIdeal.Value.run (F := Ideal) m ρ)

end Cert.ReferenceIdeal.RefValue

end
-- ==== Proof.lean ====
/-
  The certificate of an int4-weights matmul kernel against its jnp reference.

  The kernel computes, for `x : [16, 8192]`, packed weights `qw : i32[1024, 28672]` (eight 4-bit weights per word: weight
  `8p + j` of channel `o` is bits `4j … 4j+3` of `qw[p, o]`), per-channel `s`, `z` and bias `b`,

      out[r, o] = (Σ_i x[r, i] · w[i, o]) · s[o] − (Σ_i x[r, i]) · z[o] + b[o],

  on a 7 × 4 grid: 4096 channels per tile, 256 packed rows per step, the eight nibble planes of a step's weight tile
  multiplied against the matching planes of `x` and accumulated in a scratch buffer that is zeroed at a tile's first
  step and turned into the output block at its last. The reference unpacks all of `qw` into an [8192, 28672] matrix
  and contracts once. Over the extended reals both are the one function `Cert.Spec.G` of the arguments: the two
  sums range over the same products, grouped differently, and addition there is commutative and associative, so
  the precondition (finite inputs) is never opened.

  The three frames: the kernel's (at the word-level and at the ideal instance, one text) is a pipelined-region
  frame with the accumulator carried in the region's invariant; the reference's is its run with the result dropped.
  The ideal pass rewrote nothing, so `preserves` is `True`.
-/
import proofs.«429149_j18373870092919_3_alg».proof.Defs
import proofs.«429149_j18373870092919_3_alg».proof.Proof.Gen.Kernel
import proofs.«429149_j18373870092919_3_alg».proof.Proof.Gen.KernelIdeal
import proofs.«429149_j18373870092919_3_alg».proof.Proof.Gen.ReferenceIdeal
import proofs.«429149_j18373870092919_3_alg».proof.Proof.Gen.Pre_finite_inputs
import proofs.«429149_j18373870092919_3_alg».proof.Proof.BitsFrame
import proofs.«429149_j18373870092919_3_alg».proof.Proof.IdealValue
import proofs.«429149_j18373870092919_3_alg».proof.Proof.RefValue

noncomputable section

namespace Cert.Proof

open Idealize.ShloMosaic Idealize.ShloMosaic.TcCoe Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the specification of the (agreeing) arguments. -/
theorem algebraic : Cert.algebraic_KernelIdeal_ReferenceIdeal := by
  intro m ρ m' ρ' _ hagree
  refine ⟨_, Cert.KernelIdeal.Fr.run_G m ρ, ?_⟩
  refine (θ_run Cert.ReferenceIdeal.defs _ _).mono (fun _ h c => ⟨(h c).1.trans ?_, (h c).2⟩)
    (Cert.ReferenceIdeal.RefValue.run_G m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
